-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S32x64 : Shape := ⟨2, ![32, 64]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_

variable [Facts]

def fn_part3 {F : FTy → Type} [FloatOps F] (main_arg8 : FVec F S64 .f32) (main_v48 : IVec S_ 1) (main_v49 : FVec F S32x64 .f32) (main_v50 : FVec F S32x64 .f32) : IVec S_ 1 :=
  let main_v51 : IVec S32x64 1 := cmpf .olt main_v49 main_v50
  let main_c_19 : IVec S_ 1 := constantI S_ 1 1#1
  let main_v52 : IVec S_ 1 := (fun x v => Host.reduce IntOp.andi x v reducesTo_S32x64_S_d0_1 h_S_) main_v51 main_c_19
  let main_v53 : IVec S_ 1 := andi main_v48 main_v52
  let main_cst_20 : FVec F S_ .f32 := constant S_ .f32 0x00000000#32
  let main_v54 : FVec F S64 .f32 := broadcastInDim S64 ![] bcast_S_S64 main_cst_20
  let main_v55 : IVec S64 1 := cmpf .oge main_arg8 main_v54
  let main_c_21 : IVec S_ 1 := constantI S_ 1 1#1
  let main_v56 : IVec S_ 1 := (fun x v => Host.reduce IntOp.andi x v reducesTo_S64_S_d0 h_S_) main_v55 main_c_21
  let main_v57 : IVec S_ 1 := andi main_v53 main_v56
  main_v57

def fn_part2 {F : FTy → Type} [FloatOps F] (main_arg8 : FVec F S64 .f32) (main_arg9 : FVec F S32x64 .f32) (main_arg10 : FVec F S32 .f32) (main_arg11 : FVec F S32x64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S32x64 .f32 := Host.absf main_arg9
  let main_cst_14 : FVec F S_ .f32 := constant S_ .f32 0x7F800000#32
  let main_v40 : FVec F S32x64 .f32 := broadcastInDim S32x64 ![] bcast_S_S32x64 main_cst_14
  let main_v41 : IVec S32x64 1 := cmpf .olt main_v39 main_v40
  let main_c_15 : IVec S_ 1 := constantI S_ 1 1#1
  let main_v42 : IVec S_ 1 := (fun x v => Host.reduce IntOp.andi x v reducesTo_S32x64_S_d0_1 h_S_) main_v41 main_c_15
  let main_v43 : IVec S_ 1 := andi main_v38 main_v42
  let main_v44 : FVec F S32 .f32 := Host.absf main_arg10
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x64 .f32 := Host.absf main_arg11
  let main_cst_18 : FVec F S_ .f32 := constant S_ .f32 0x7F800000#32
  let main_v50 : FVec F S32x64 .f32 := broadcastInDim S32x64 ![] bcast_S_S32x64 main_cst_18
  fn_part3 (F := F) main_arg8 main_v48 main_v49 main_v50

def fn_part1 {F : FTy → Type} [FloatOps F] (main_arg5 : FVec F S64 .f32) (main_arg6 : FVec F S64 .f32) (main_arg7 : FVec F S64 .f32) (main_arg8 : FVec F S64 .f32) (main_arg9 : FVec F S32x64 .f32) (main_arg10 : FVec F S32 .f32) (main_arg11 : FVec F S32x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64 .f32) (main_arg6 : FVec F S64 .f32) (main_arg7 : FVec F S64 .f32) (main_arg8 : FVec F S64 .f32) (main_arg9 : FVec F S32x64 .f32) (main_arg10 : FVec F S32 .f32) (main_arg11 : FVec F S32x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S32x64 : Shape := ⟨2, ![32, 64]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S10000x64 : Shape := ⟨2, ![10000, 64]⟩
abbrev S1x32 : Shape := ⟨2, ![1, 32]⟩
abbrev S100000x32 : Shape := ⟨2, ![100000, 32]⟩
abbrev S10000x32 : Shape := ⟨2, ![10000, 32]⟩
abbrev S64x32 : Shape := ⟨2, ![64, 32]⟩
abbrev S10000 : Shape := ⟨1, ![10000]⟩
abbrev S10000x1 : Shape := ⟨2, ![10000, 1]⟩

abbrev nBuf : Space → Nat
  | .hbm => 72
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S32x64, .f32⟩
  | .hbm, ⟨10, _⟩ => ⟨S32, .f32⟩
  | .hbm, ⟨11, _⟩ => ⟨S32x64, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x64, .f32⟩
  | .hbm, ⟨25, _⟩ => ⟨S_, .f32⟩
  | .hbm, ⟨26, _⟩ => ⟨S100000x64, .f32⟩
  | .hbm, ⟨27, _⟩ => ⟨S1600000x1, .i32⟩
  | .hbm, ⟨28, _⟩ => ⟨S100000x64, .f32⟩
  | .hbm, ⟨29, _⟩ => ⟨S_, .f32⟩
  | .hbm, ⟨30, _⟩ => ⟨S1600000x1, .f32⟩
  | .hbm, ⟨31, _⟩ => ⟨S_, .f32⟩
  | .hbm, ⟨32, _⟩ => ⟨S100000x1, .f32⟩
  | .hbm, ⟨33, _⟩ => ⟨S1600000x1, .i32⟩
  | .hbm, ⟨34, _⟩ => ⟨S100000x1, .f32⟩
  | .hbm, ⟨35, _⟩ => ⟨S_, .f32⟩
  | .hbm, ⟨36, _⟩ => ⟨S100000x1, .f32⟩
  | .hbm, ⟨37, _⟩ => ⟨S100000x1, .f32⟩
  | .hbm, ⟨38, _⟩ => ⟨S100000x64, .f32⟩
  | .hbm, ⟨39, _⟩ => ⟨S100000x64, .f32⟩
  | .hbm, ⟨40, _⟩ => ⟨S1x64, .f32⟩
  | .hbm, ⟨41, _⟩ => ⟨S1x64, .f32⟩
  | .hbm, ⟨42, _⟩ => ⟨S1x64, .f32⟩
  | .hbm, ⟨43, _⟩ => ⟨S1x64, .f32⟩
  | .hbm, ⟨44, _⟩ => ⟨S1x64, .f32⟩
  | .hbm, ⟨45, _⟩ => ⟨S100000x64, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x64, .f32⟩
  | .hbm, ⟨55, _⟩ => ⟨S_, .f32⟩
  | .hbm, ⟨56, _⟩ => ⟨S100000x64, .f32⟩
  | .hbm, ⟨57, _⟩ => ⟨S1600000x1, .i32⟩
  | .hbm, ⟨58, _⟩ => ⟨S100000x64, .f32⟩
  | .hbm, ⟨59, _⟩ => ⟨S_, .f32⟩
  | .hbm, ⟨60, _⟩ => ⟨S1600000x1, .f32⟩
  | .hbm, ⟨61, _⟩ => ⟨S_, .f32⟩
  | .hbm, ⟨62, _⟩ => ⟨S100000x1, .f32⟩
  | .hbm, ⟨63, _⟩ => ⟨S1600000x1, .i32⟩
  | .hbm, ⟨64, _⟩ => ⟨S100000x1, .f32⟩
  | .hbm, ⟨65, _⟩ => ⟨S_, .f32⟩
  | .hbm, ⟨66, _⟩ => ⟨S100000x1, .f32⟩
  | .hbm, ⟨67, _⟩ => ⟨S100000x1, .f32⟩
  | .hbm, ⟨68, _⟩ => ⟨S100000x64, .f32⟩
  | .hbm, ⟨69, _⟩ => ⟨S100000x64, .f32⟩
  | .hbm, ⟨70, _⟩ => ⟨S1x32, .f32⟩
  | .hbm, ⟨71, _⟩ => ⟨S100000x32, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S32x64, .f32⟩
  | .local _ .vmem, ⟨18, _⟩ => ⟨S1x32, .f32⟩
  | .local _ .vmem, ⟨19, _⟩ => ⟨S32x64, .f32⟩
  | .local _ .vmem, ⟨20, _⟩ => ⟨S10000x32, .f32⟩
  | .local _ .vmem, ⟨21, _⟩ => ⟨S10000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_4 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_6 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_7 : Ref sig .tc := ⟨.hbm, 59, rfl⟩
abbrev main_v38 : Ref sig .tc := ⟨.hbm, 60, rfl⟩
abbrev main_cst_8 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_9 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem5_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S10000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S32_S1x32 : S32.ShapeCasts S1x32
  inb_S32x64_S32x64_0_0 : ∀ a, (![0, 0] : Fin 2 → Nat) a + S32x64.size a ≤ S32x64.size a
  h_S32x64 : 0 < S32x64.numel
  transposes_S32x64_p1_0_S64x32 : S32x64.Transposes [1, 0] S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  reduces_S10000x32_S10000 : S10000x32.Reduces [1] S10000
  shapeCasts_S10000_S10000x1 : S10000.ShapeCasts S10000x1
  broadcasts_S10000x1_S10000x32 : S10000x1.Broadcasts S10000x32
  inb_S10000x32_S10000x32_0_0 : ∀ a, (![0, 0] : Fin 2 → Nat) a + S10000x32.size a ≤ S10000x32.size a
  h_S10000x32 : 0 < S10000x32.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000x1_S1600000x1_S1600000x1_1_0_0_1_wf : ScatterDims.WF S100000x1 S1600000x1 S1600000x1 [1] [0] [0] 1
  dot_S10000x64_S64x64_S10000x64_1_0_0_1_n_n_wf : DotDims.WF S10000x64 S64x64 S10000x64 [1] [0] [0] [1] [] []
  dot_S10000x64_S64x32_S10000x32_1_0_0_1_n_n_wf : DotDims.WF S10000x64 S64x32 S10000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S10000x64.size a ≤ S100000x64.size a
  hwx0_9 : ∀ i : grid0.Coords, EltTy.bits .f32 = 32 ∨ (Rect.block (s := S100000x64) S10000x64.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x64.size a ≤ S32x64.size a
  hwx1_2 : ∀ i : grid1.Coords, EltTy.bits .f32 = 32 ∨ (Rect.block (s := S32x64) S32x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x64.size a ≤ S32x64.size a
  hwx1_4 : ∀ i : grid1.Coords, EltTy.bits .f32 = 32 ∨ (Rect.block (s := S32x64) S32x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x32.size a ≤ S100000x32.size a
  hwx1_5 : ∀ i : grid1.Coords, EltTy.bits .f32 = 32 ∨ (Rect.block (s := S100000x32) S10000x32.size (cc1_transform_5 i) (hinb1_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf

abbrev win0_0 : Pipeline.Window sig grid0 :=
  Pipeline.Window.ofSpec (Memref.whole main_v21) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v26) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v27) S10000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v45) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S32x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S32x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S10000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S32x64 : Shape := ⟨2, ![32, 64]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S64x32 : Shape := ⟨2, ![64, 32]⟩
abbrev S100000x32 : Shape := ⟨2, ![100000, 32]⟩
abbrev S1x32 : Shape := ⟨2, ![1, 32]⟩
abbrev S100000 : Shape := ⟨1, ![100000]⟩

abbrev nBuf : Space → Nat
  | .hbm => 112
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S32x64, .f32⟩
  | .hbm, ⟨10, _⟩ => ⟨S32, .f32⟩
  | .hbm, ⟨11, _⟩ => ⟨S32x64, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x64, .f32⟩
  | .hbm, ⟨25, _⟩ => ⟨S_, .f32⟩
  | .hbm, ⟨26, _⟩ => ⟨S100000x64, .f32⟩
  | .hbm, ⟨27, _⟩ => ⟨S1600000x1, .i32⟩
  | .hbm, ⟨28, _⟩ => ⟨S100000x64, .f32⟩
  | .hbm, ⟨29, _⟩ => ⟨S_, .f32⟩
  | .hbm, ⟨30, _⟩ => ⟨S1600000x1, .f32⟩
  | .hbm, ⟨31, _⟩ => ⟨S_, .f32⟩
  | .hbm, ⟨32, _⟩ => ⟨S100000x1, .f32⟩
  | .hbm, ⟨33, _⟩ => ⟨S1600000x1, .i32⟩
  | .hbm, ⟨34, _⟩ => ⟨S100000x1, .f32⟩
  | .hbm, ⟨35, _⟩ => ⟨S_, .f32⟩
  | .hbm, ⟨36, _⟩ => ⟨S100000x1, .f32⟩
  | .hbm, ⟨37, _⟩ => ⟨S100000x1, .f32⟩
  | .hbm, ⟨38, _⟩ => ⟨S100000x64, .f32⟩
  | .hbm, ⟨39, _⟩ => ⟨S100000x64, .f32⟩
  | .hbm, ⟨40, _⟩ => ⟨S64x64, .f32⟩
  | .hbm, ⟨41, _⟩ => ⟨S100000x64, .f32⟩
  | .hbm, ⟨42, _⟩ => ⟨S1x64, .f32⟩
  | .hbm, ⟨43, _⟩ => ⟨S100000x64, .f32⟩
  | .hbm, ⟨44, _⟩ => ⟨S100000x64, .f32⟩
  | .hbm, ⟨45, _⟩ => ⟨S64x64, .f32⟩
  | .hbm, ⟨46, _⟩ => ⟨S100000x64, .f32⟩
  | .hbm, ⟨47, _⟩ => ⟨S100000x64, .f32⟩
  | .hbm, ⟨48, _⟩ => ⟨S1x64, .f32⟩
  | .hbm, ⟨49, _⟩ => ⟨S100000x64, .f32⟩
  | .hbm, ⟨50, _⟩ => ⟨S100000x64, .f32⟩
  | .hbm, ⟨51, _⟩ => ⟨S_, .f32⟩
  | .hbm, ⟨52, _⟩ => ⟨S64, .f32⟩
  | .hbm, ⟨53, _⟩ => ⟨S64, .f32⟩
  | .hbm, ⟨54, _⟩ => ⟨S64, .f32⟩
  | .hbm, ⟨55, _⟩ => ⟨S64, .f32⟩
  | .hbm, ⟨56, _⟩ => ⟨S1x64, .f32⟩
  | .hbm, ⟨57, _⟩ => ⟨S100000x64, .f32⟩
  | .hbm, ⟨58, _⟩ => ⟨S100000x64, .f32⟩
  | .hbm, ⟨59, _⟩ => ⟨S1x64, .f32⟩
  | .hbm, ⟨60, _⟩ => ⟨S100000x64, .f32⟩
  | .hbm, ⟨61, _⟩ => ⟨S100000x64, .f32⟩
  | .hbm, ⟨62, _⟩ => ⟨S_, .f32⟩
  | .hbm, ⟨63, _⟩ => ⟨S100000x64, .f32⟩
  | .hbm, ⟨64, _⟩ => ⟨S100000x64, .f32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1600000x64, .f32⟩
  | .hbm, ⟨74, _⟩ => ⟨S_, .f32⟩
  | .hbm, ⟨75, _⟩ => ⟨S100000x64, .f32⟩
  | .hbm, ⟨76, _⟩ => ⟨S1600000x1, .i32⟩
  | .hbm, ⟨77, _⟩ => ⟨S100000x64, .f32⟩
  | .hbm, ⟨78, _⟩ => ⟨S_, .f32⟩
  | .hbm, ⟨79, _⟩ => ⟨S1600000x1, .f32⟩
  | .hbm, ⟨80, _⟩ => ⟨S_, .f32⟩
  | .hbm, ⟨81, _⟩ => ⟨S100000x1, .f32⟩
  | .hbm, ⟨82, _⟩ => ⟨S1600000x1, .i32⟩
  | .hbm, ⟨83, _⟩ => ⟨S100000x1, .f32⟩
  | .hbm, ⟨84, _⟩ => ⟨S_, .f32⟩
  | .hbm, ⟨85, _⟩ => ⟨S100000x1, .f32⟩
  | .hbm, ⟨86, _⟩ => ⟨S100000x1, .f32⟩
  | .hbm, ⟨87, _⟩ => ⟨S100000x64, .f32⟩
  | .hbm, ⟨88, _⟩ => ⟨S100000x64, .f32⟩
  | .hbm, ⟨89, _⟩ => ⟨S64x32, .f32⟩
  | .hbm, ⟨90, _⟩ => ⟨S100000x32, .f32⟩
  | .hbm, ⟨91, _⟩ => ⟨S1x32, .f32⟩
  | .hbm, ⟨92, _⟩ => ⟨S100000x32, .f32⟩
  | .hbm, ⟨93, _⟩ => ⟨S100000x32, .f32⟩
  | .hbm, ⟨94, _⟩ => ⟨S64x32, .f32⟩
  | .hbm, ⟨95, _⟩ => ⟨S100000x32, .f32⟩
  | .hbm, ⟨96, _⟩ => ⟨S100000x32, .f32⟩
  | .hbm, ⟨97, _⟩ => ⟨S_, .f32⟩
  | .hbm, ⟨98, _⟩ => ⟨S100000, .f32⟩
  | .hbm, ⟨99, _⟩ => ⟨S_, .f32⟩
  | .hbm, ⟨100, _⟩ => ⟨S100000, .f32⟩
  | .hbm, ⟨101, _⟩ => ⟨S100000, .f32⟩
  | .hbm, ⟨102, _⟩ => ⟨S100000x1, .f32⟩
  | .hbm, ⟨103, _⟩ => ⟨S100000x32, .f32⟩
  | .hbm, ⟨104, _⟩ => ⟨S100000x32, .f32⟩
  | .hbm, ⟨105, _⟩ => ⟨S100000x32, .f32⟩
  | .hbm, ⟨106, _⟩ => ⟨S_, .f32⟩
  | .hbm, ⟨107, _⟩ => ⟨S100000, .f32⟩
  | .hbm, ⟨108, _⟩ => ⟨S100000x1, .f32⟩
  | .hbm, ⟨109, _⟩ => ⟨S100000x1, .f32⟩
  | .hbm, ⟨110, _⟩ => ⟨S100000x32, .f32⟩
  | .hbm, ⟨111, _⟩ => ⟨S100000x32, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_4 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_call0_cst : Ref sig .tc := ⟨.hbm, 62, rfl⟩
abbrev main_call0_v0 : Ref sig .tc := ⟨.hbm, 63, rfl⟩
abbrev main_v43 : Ref sig .tc := ⟨.hbm, 64, rfl⟩
abbrev main_c_5 : Ref sig .tc := ⟨.hbm, 65, rfl⟩
abbrev main_v44 : Ref sig .tc := ⟨.hbm, 66, rfl⟩
abbrev main_v45 : Ref sig .tc := ⟨.hbm, 67, rfl⟩
abbrev main_c_6 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_7 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_8 : Ref sig .tc := ⟨.hbm, 78, rfl⟩
abbrev main_v54 : Ref sig .tc := ⟨.hbm, 79, rfl⟩
abbrev main_cst_9 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_10 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_call1_cst : Ref sig .tc := ⟨.hbm, 97, rfl⟩
abbrev main_call1_v0 : Ref sig .tc := ⟨.hbm, 98, rfl⟩
abbrev main_call1_cst_0 : Ref sig .tc := ⟨.hbm, 99, rfl⟩
abbrev main_call1_v1 : Ref sig .tc := ⟨.hbm, 100, rfl⟩
abbrev main_call1_v2 : Ref sig .tc := ⟨.hbm, 101, rfl⟩
abbrev main_call1_v3 : Ref sig .tc := ⟨.hbm, 102, rfl⟩
abbrev main_call1_v4 : Ref sig .tc := ⟨.hbm, 103, rfl⟩
abbrev main_call1_v5 : Ref sig .tc := ⟨.hbm, 104, rfl⟩
abbrev main_call1_v6 : Ref sig .tc := ⟨.hbm, 105, rfl⟩
abbrev main_call1_cst_1 : Ref sig .tc := ⟨.hbm, 106, rfl⟩
abbrev main_call1_v7 : Ref sig .tc := ⟨.hbm, 107, rfl⟩
abbrev main_call1_v8 : Ref sig .tc := ⟨.hbm, 108, rfl⟩
abbrev main_call1_v9 : Ref sig .tc := ⟨.hbm, 109, rfl⟩
abbrev main_call1_v10 : Ref sig .tc := ⟨.hbm, 110, rfl⟩
abbrev main_v70 : Ref sig .tc := ⟨.hbm, 111, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  transposes_S32x64_S64x32_1_0 : S32x64.Transposes [1, 0] S64x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  reducesTo_S100000x32_S100000_d1 : S100000x32.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000x1_S1600000x1_S1600000x1_1_0_0_1_wf : ScatterDims.WF S100000x1 S1600000x1 S1600000x1 [1] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.KernelHost.lean ====
/- The host stretches of the kernel's @main, read as values: what each region finds in the arrays it stages.
   Before region 0: the mean aggregation of x over the edges (gather the source rows, add them into the destination rows, divide by the
   clamped in-degree), and the five per-feature vectors recast as [1,64] rows. Between the regions: the same aggregation of the hidden
   array region 0 left, and the bias recast as a [1,32] row. No host operation writes an argument. -/
import proofs.«122199_j26603027431847_1_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.StableHlo Idealize.ShloMosaic.ValueIdx

namespace Cert.KernelIdeal.HostRead

open Cert.KernelIdeal Cert.KernelIdeal.Gen

variable {F : FTy → Type} [FloatOps F]

/-- Mean aggregation over the edges: row i of the result is the sum of the rows x[src(j)] over the edges j with dst(j) = i,
    divided by max(in-degree(i), 1). -/
def segMean (x : FVec F S100000x64 .f32) (e : IVec S2x1600000 32) : FVec F S100000x64 .f32 :=
  Host.divf (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (shapeCast _ (extractStridedSlice S1x1600000 ![1, 0] e slices_S2x1600000_S1x1600000_1_0) shapeCasts_S1x1600000_S1600000)) (Host.gather gather_S100000x64_S1600000x1_S1600000x64_1_0_n_n_0_1_164 x (broadcastInDim S1600000x1 ![0] bcast_S1600000_S1600000x1_0 (select (cmpi .slt (shapeCast _ (extractStridedSlice S1x1600000 ![0, 0] e slices_S2x1600000_S1x1600000_0_0) shapeCasts_S1x1600000_S1600000) (broadcastInDim S1600000 ![] bcast_S_S1600000 (constantI S_ 32 0#32))) (addi (shapeCast _ (extractStridedSlice S1x1600000 ![0, 0] e slices_S2x1600000_S1x1600000_0_0) shapeCasts_S1x1600000_S1600000) (broadcastInDim S1600000 ![] bcast_S_S1600000 (constantI S_ 32 100000#32))) (shapeCast _ (extractStridedSlice S1x1600000 ![0, 0] e slices_S2x1600000_S1x1600000_0_0) shapeCasts_S1x1600000_S1600000))))) (broadcastInDim S100000x64 ![0, 1] bcast_S100000x1_S100000x64_0_1 (maximumf (Host.scatterAdd scatter_S100000x1_S1600000x1_S1600000x1_1_0_0_1 (broadcastInDim S100000x1 ![] bcast_S_S100000x1 (constant S_ .f32 0x00000000#32)) (broadcastInDim S1600000x1 ![0] bcast_S1600000_S1600000x1_0 (shapeCast _ (extractStridedSlice S1x1600000 ![1, 0] e slices_S2x1600000_S1x1600000_1_0) shapeCasts_S1x1600000_S1600000)) (broadcastInDim S1600000x1 ![] bcast_S_S1600000x1 (constant S_ .f32 0x3F800000#32))) (broadcastInDim S100000x1 ![] bcast_S_S100000x1 (constant S_ .f32 0x3F800000#32))))

variable (m : (ℓ : Loc nD τ sig) → Buf (Elt F) ℓ) (ρ : Dev nD → PrngReg)

/-- Region 0's first window: the aggregated node features. -/
theorem V1_agg (c : Dev nD) :
    V1 m ρ c main_v21 = segMean (m ((c : Thread nD τ).loc main_arg0)) (m ((c : Thread nD τ).loc main_arg1)) := by
  show StableHlo.after hostOps0 (W0 m ρ c) (Proc.devRef .tc main_v21) = _
  after_results_simp
  rfl

/-! ## Before region 0 -/

theorem V1_arg0 (c : Dev nD) : V1 m ρ c main_arg0 = m ((c : Thread nD τ).loc main_arg0) := by
  show StableHlo.after hostOps0 (W0 m ρ c) (Proc.devRef .tc main_arg0) = _
  after_results_simp

theorem V1_arg2 (c : Dev nD) : V1 m ρ c main_arg2 = m ((c : Thread nD τ).loc main_arg2) := by
  show StableHlo.after hostOps0 (W0 m ρ c) (Proc.devRef .tc main_arg2) = _
  after_results_simp

theorem V1_arg4 (c : Dev nD) : V1 m ρ c main_arg4 = m ((c : Thread nD τ).loc main_arg4) := by
  show StableHlo.after hostOps0 (W0 m ρ c) (Proc.devRef .tc main_arg4) = _
  after_results_simp

/-- The five per-feature vectors enter region 0 as [1,64] rows: bias, gamma, beta, mean, variance. -/
theorem V1_row_v22 (c : Dev nD) (o : Fin 64) :
    (V1 m ρ c main_v22 : S1x64.Idx → Elt F .f32) (ix2 0 o) = (m ((c : Thread nD τ).loc main_arg3) : S64.Idx → Elt F .f32) (ix1 o) := by
  have e : V1 m ρ c main_v22 = shapeCast S1x64 (m ((c : Thread nD τ).loc main_arg3)) shapeCasts_S64_S1x64 := by
    show StableHlo.after hostOps0 (W0 m ρ c) (Proc.devRef .tc main_v22) = _
    after_results_simp
    rfl
  rw [e]
  exact shapeCast_a_1a_apply _ _ 0 o

theorem V1_row_v23 (c : Dev nD) (o : Fin 64) :
    (V1 m ρ c main_v23 : S1x64.Idx → Elt F .f32) (ix2 0 o) = (m ((c : Thread nD τ).loc main_arg5) : S64.Idx → Elt F .f32) (ix1 o) := by
  have e : V1 m ρ c main_v23 = shapeCast S1x64 (m ((c : Thread nD τ).loc main_arg5)) shapeCasts_S64_S1x64 := by
    show StableHlo.after hostOps0 (W0 m ρ c) (Proc.devRef .tc main_v23) = _
    after_results_simp
    rfl
  rw [e]
  exact shapeCast_a_1a_apply _ _ 0 o

theorem V1_row_v24 (c : Dev nD) (o : Fin 64) :
    (V1 m ρ c main_v24 : S1x64.Idx → Elt F .f32) (ix2 0 o) = (m ((c : Thread nD τ).loc main_arg6) : S64.Idx → Elt F .f32) (ix1 o) := by
  have e : V1 m ρ c main_v24 = shapeCast S1x64 (m ((c : Thread nD τ).loc main_arg6)) shapeCasts_S64_S1x64 := by
    show StableHlo.after hostOps0 (W0 m ρ c) (Proc.devRef .tc main_v24) = _
    after_results_simp
    rfl
  rw [e]
  exact shapeCast_a_1a_apply _ _ 0 o

theorem V1_row_v25 (c : Dev nD) (o : Fin 64) :
    (V1 m ρ c main_v25 : S1x64.Idx → Elt F .f32) (ix2 0 o) = (m ((c : Thread nD τ).loc main_arg7) : S64.Idx → Elt F .f32) (ix1 o) := by
  have e : V1 m ρ c main_v25 = shapeCast S1x64 (m ((c : Thread nD τ).loc main_arg7)) shapeCasts_S64_S1x64 := by
    show StableHlo.after hostOps0 (W0 m ρ c) (Proc.devRef .tc main_v25) = _
    after_results_simp
    rfl
  rw [e]
  exact shapeCast_a_1a_apply _ _ 0 o

theorem V1_row_v26 (c : Dev nD) (o : Fin 64) :
    (V1 m ρ c main_v26 : S1x64.Idx → Elt F .f32) (ix2 0 o) = (m ((c : Thread nD τ).loc main_arg8) : S64.Idx → Elt F .f32) (ix1 o) := by
  have e : V1 m ρ c main_v26 = shapeCast S1x64 (m ((c : Thread nD τ).loc main_arg8)) shapeCasts_S64_S1x64 := by
    show StableHlo.after hostOps0 (W0 m ρ c) (Proc.devRef .tc main_v26) = _
    after_results_simp
    rfl
  rw [e]
  exact shapeCast_a_1a_apply _ _ 0 o

/-! ## Between the regions -/

/-- Region 0 writes only its output array: the edge endpoints computed before it are still there. -/
theorem W2_src (c : Dev nD) : W2 m ρ c (Proc.devRef .tc main_v1)
    = shapeCast _ (extractStridedSlice S1x1600000 ![0, 0] (m ((c : Thread nD τ).loc main_arg1)) slices_S2x1600000_S1x1600000_0_0) shapeCasts_S1x1600000_S1600000 := by
  rw [W2_of_ne m ρ c main_v1 (by decide)]
  show StableHlo.after hostOps0 (W0 m ρ c) (Proc.devRef .tc main_v1) = _
  after_results_simp
  rfl
theorem W2_dst (c : Dev nD) : W2 m ρ c (Proc.devRef .tc main_v3)
    = shapeCast _ (extractStridedSlice S1x1600000 ![1, 0] (m ((c : Thread nD τ).loc main_arg1)) slices_S2x1600000_S1x1600000_1_0) shapeCasts_S1x1600000_S1600000 := by
  rw [W2_of_ne m ρ c main_v3 (by decide)]
  show StableHlo.after hostOps0 (W0 m ρ c) (Proc.devRef .tc main_v3) = _
  after_results_simp
  rfl

theorem W2_arg9 (c : Dev nD) : W2 m ρ c (Proc.devRef .tc main_arg9) = m ((c : Thread nD τ).loc main_arg9) := by
  rw [W2_of_ne m ρ c main_arg9 (by decide)]
  show StableHlo.after hostOps0 (W0 m ρ c) (Proc.devRef .tc main_arg9) = _
  after_results_simp

theorem W2_arg10 (c : Dev nD) : W2 m ρ c (Proc.devRef .tc main_arg10) = m ((c : Thread nD τ).loc main_arg10) := by
  rw [W2_of_ne m ρ c main_arg10 (by decide)]
  show StableHlo.after hostOps0 (W0 m ρ c) (Proc.devRef .tc main_arg10) = _
  after_results_simp

theorem W2_arg11 (c : Dev nD) : W2 m ρ c (Proc.devRef .tc main_arg11) = m ((c : Thread nD τ).loc main_arg11) := by
  rw [W2_of_ne m ρ c main_arg11 (by decide)]
  show StableHlo.after hostOps0 (W0 m ρ c) (Proc.devRef .tc main_arg11) = _
  after_results_simp

/-- The hidden array region 0 left is what its write-backs fold to. -/
theorem W2_hidden (c : Dev nD) : W2 m ρ c (Proc.devRef .tc main_v27) = (dat0 (V1 m ρ) c).arrAt 9 cfg0.N :=
  W2_arr m ρ c 9

/-- Region 1's first window: the aggregated hidden features. -/
theorem V3_agg (c : Dev nD) :
    V3 m ρ c main_v45 = segMean (W2 m ρ c (Proc.devRef .tc main_v27)) (m ((c : Thread nD τ).loc main_arg1)) := by
  show StableHlo.after hostOps1 (W2 m ρ c) (Proc.devRef .tc main_v45) = _
  after_results_simp
  rw [W2_src, W2_dst]
  rfl

/-- Region 1's second window: the hidden features themselves. -/
theorem V3_hidden (c : Dev nD) : V3 m ρ c main_v27 = W2 m ρ c (Proc.devRef .tc main_v27) := by
  show StableHlo.after hostOps1 (W2 m ρ c) (Proc.devRef .tc main_v27) = _
  after_results_simp

theorem V3_arg9 (c : Dev nD) : V3 m ρ c main_arg9 = m ((c : Thread nD τ).loc main_arg9) := by
  show StableHlo.after hostOps1 (W2 m ρ c) (Proc.devRef .tc main_arg9) = _
  after_results_simp
  exact W2_arg9 m ρ c

theorem V3_arg11 (c : Dev nD) : V3 m ρ c main_arg11 = m ((c : Thread nD τ).loc main_arg11) := by
  show StableHlo.after hostOps1 (W2 m ρ c) (Proc.devRef .tc main_arg11) = _
  after_results_simp
  exact W2_arg11 m ρ c

/-- The class bias enters region 1 as a [1,32] row. -/
theorem V3_row_v46 (c : Dev nD) (o : Fin 32) :
    (V3 m ρ c main_v46 : S1x32.Idx → Elt F .f32) (ix2 0 o) = (m ((c : Thread nD τ).loc main_arg10) : S32.Idx → Elt F .f32) (ix1 o) := by
  have e : V3 m ρ c main_v46 = shapeCast S1x32 (m ((c : Thread nD τ).loc main_arg10)) shapeCasts_S32_S1x32 := by
    show StableHlo.after hostOps1 (W2 m ρ c) (Proc.devRef .tc main_v46) = _
    after_results_simp
    rw [W2_arg10]
    rfl
  rw [e]
  exact shapeCast_a_1a_apply _ _ 0 o

end Cert.KernelIdeal.HostRead

end
-- ==== Proof.Spec.lean ====
/-
  The two SAGE layers as functions of whole arrays, node by node.

  Layer 0 at node r, feature o:  relu( (lin − mean[o]) · (gamma[o] · rsqrt(var[o] + ε)) + beta[o] ),
  with lin = (Σ_k agg[r,k]·Wl[o,k] + b[o]) + Σ_k x[r,k]·Wr[o,k].
  Layer 1 at node r, class o: the same linear combination (32 classes), then the row's log-softmax
  (out[o] − M) − log Σ_o' exp(out[o'] − M), M the row's maximum.
  Both depend on node r only through rows r of their two node-feature arrays, so a block of rows of the
  result is the same function of the same block of rows of the inputs.

  The one law that is not a rearrangement: for a variance 0 ≤ v and the positive ε,
  g · rsqrt(v + ε) = g / sqrt(v + ε) on the extended reals (both are g · (√(v+ε))⁻¹; at v = ⊤ both are g · 0).
-/
import Idealize.ShloMosaic.PureOps.Ideal
import Idealize.ShloMosaic.PureOps.Ideal.Laws
import Idealize.ShloMosaic.Lib.ValueIdx

noncomputable section

open Idealize.ShloMosaic Idealize.ShloMosaic.ValueIdx

namespace Cert.Sage

/-- The batch norm's ε: the f32 word nearest 1e-5, which both programs carry. -/
abbrev eps : EReal := Ideal.ofBits .f32 0x3727C5AC#32
/-- The f32 zero word. -/
abbrev zero32 : EReal := Ideal.ofBits .f32 0x00000000#32
/-- The f32 word of −∞, the start of a running maximum. -/
abbrev negInf32 : EReal := Ideal.ofBits .f32 0xFF800000#32

/-! ## Layer 0 -/

/-- The linear combination of a node's aggregated row `a` and own row `xr` at output feature `o`. -/
def lin0Row (a xr : Fin 64 → EReal) (wl wr : (⟨2, ![64, 64]⟩ : Shape).Idx → EReal) (b : Fin 64 → EReal) (o : Fin 64) : EReal :=
  ((∑ k : Fin 64, a k * wl (ix2 o k)) + b o) + ∑ k : Fin 64, xr k * wr (ix2 o k)

/-- Batch norm with running statistics, then relu, of one entry. -/
def bnRelu (y g be mu var : EReal) : EReal := max ((y - mu) * (g * Ideal.rsqrt (var + eps)) + be) zero32

/-- Layer 0 at node `r`, feature `o`. -/
def layer0At (agg x : (⟨2, ![100000, 64]⟩ : Shape).Idx → EReal) (wl wr : (⟨2, ![64, 64]⟩ : Shape).Idx → EReal)
    (b g be mu var : Fin 64 → EReal) (r : Fin 100000) (o : Fin 64) : EReal :=
  bnRelu (lin0Row (fun k => agg (ix2 r k)) (fun k => x (ix2 r k)) wl wr b o) (g o) (be o) (mu o) (var o)

/-- Layer 0 as one array. -/
def layer0 (agg x : (⟨2, ![100000, 64]⟩ : Shape).Idx → EReal) (wl wr : (⟨2, ![64, 64]⟩ : Shape).Idx → EReal)
    (b g be mu var : Fin 64 → EReal) : (⟨2, ![100000, 64]⟩ : Shape).Idx → EReal :=
  fun i => layer0At agg x wl wr b g be mu var (i 0) (i 1)

theorem layer0_ix2 (agg x : (⟨2, ![100000, 64]⟩ : Shape).Idx → EReal) (wl wr : (⟨2, ![64, 64]⟩ : Shape).Idx → EReal)
    (b g be mu var : Fin 64 → EReal) (r : Fin 100000) (o : Fin 64) :
    layer0 agg x wl wr b g be mu var (ix2 r o) = layer0At agg x wl wr b g be mu var r o := rfl

/-! ## Layer 1 -/

/-- The linear combination of a node's aggregated row `a` and hidden row `hr` at class `o`. -/
def lin1Row (a hr : Fin 64 → EReal) (wl wr : (⟨2, ![32, 64]⟩ : Shape).Idx → EReal) (b : Fin 32 → EReal) (o : Fin 32) : EReal :=
  ((∑ k : Fin 64, a k * wl (ix2 o k)) + b o) + ∑ k : Fin 64, hr k * wr (ix2 o k)

/-- A row's running maximum from −∞. -/
def rowMax (out : Fin 32 → EReal) : EReal := (Finset.univ : Finset (Fin 32)).fold max negInf32 out

/-- The log-softmax of a row of 32 logits at class `o`. -/
def lsmRow (out : Fin 32 → EReal) (o : Fin 32) : EReal :=
  (out o - rowMax out) - Ideal.log (∑ o' : Fin 32, Ideal.exp (out o' - rowMax out))

/-- Layer 1 at node `r`, class `o`. -/
def layer1At (agg h : (⟨2, ![100000, 64]⟩ : Shape).Idx → EReal) (wl wr : (⟨2, ![32, 64]⟩ : Shape).Idx → EReal)
    (b : Fin 32 → EReal) (r : Fin 100000) (o : Fin 32) : EReal :=
  lsmRow (fun o' => lin1Row (fun k => agg (ix2 r k)) (fun k => h (ix2 r k)) wl wr b o') o

/-- Layer 1 as one array. -/
def layer1 (agg h : (⟨2, ![100000, 64]⟩ : Shape).Idx → EReal) (wl wr : (⟨2, ![32, 64]⟩ : Shape).Idx → EReal)
    (b : Fin 32 → EReal) : (⟨2, ![100000, 32]⟩ : Shape).Idx → EReal :=
  fun i => layer1At agg h wl wr b (i 0) (i 1)

theorem layer1_ix2 (agg h : (⟨2, ![100000, 64]⟩ : Shape).Idx → EReal) (wl wr : (⟨2, ![32, 64]⟩ : Shape).Idx → EReal)
    (b : Fin 32 → EReal) (r : Fin 100000) (o : Fin 32) :
    layer1 agg h wl wr b (ix2 r o) = layer1At agg h wl wr b r o := rfl

/-! ## The two laws -/

/-- A running maximum from −∞ is at least −∞, so taking the maximum with −∞ once more changes nothing. -/
theorem max_negInf_rowMax (out : Fin 32 → EReal) : max negInf32 (rowMax out) = rowMax out :=
  max_eq_right ((Finset.le_fold_max negInf32).mpr (Or.inl le_rfl))

/-- ε is a positive real. -/
theorem eps_pos : ∃ e : ℝ, 0 < e ∧ eps = (e : EReal) := by
  refine ⟨_, ?_, by simp [eps, Ideal.ofBits, Ideal.ieee]; rfl⟩
  positivity

/-- For a variance `0 ≤ v`: `g · rsqrt(v + ε) = g / sqrt(v + ε)`. -/
theorem scale_eq (g v : EReal) (hv : 0 ≤ v) : g * Ideal.rsqrt (v + eps) = Ideal.div g (Ideal.sqrt (v + eps)) := by
  obtain ⟨e, he, hE⟩ := eps_pos
  rw [hE]
  induction v using EReal.rec with
  | bot => exact absurd hv (by simp)
  | top =>
    rw [EReal.top_add_coe, Ideal.rsqrt_top, Ideal.sqrt_top, Ideal.div, if_neg EReal.top_ne_zero, EReal.inv_top]
  | coe r =>
    have hr : 0 ≤ r := by exact_mod_cast hv
    have hpos : 0 < r + e := by linarith
    have hs : Real.sqrt (r + e) ≠ 0 := (Real.sqrt_pos.mpr hpos).ne'
    rw [← EReal.coe_add, Ideal.rsqrt_coe, Ideal.sqrt_coe]
    simp only [if_neg (not_lt.mpr hpos.le), if_neg hpos.ne']
    rw [Ideal.div, if_neg (by exact_mod_cast hs), EReal.coe_inv]

end Cert.Sage

end
-- ==== Proof.Layer0Blocks.lean ====
/- Region 0 (the first SAGE layer), read as values: the hidden array it leaves is `Sage.layer0` of the arrays it finds. -/
import proofs.«122199_j26603027431847_1_alg».proof.Proof.Gen.KernelIdeal.Frame
import proofs.«122199_j26603027431847_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layer0

open Cert.KernelIdeal Cert.KernelIdeal.Gen

-- the TensorCore's buffer contents when the region is entered
variable (V : (c : Dev nD) → (b : Ref sig .tc) → Buf (Elt Ideal) ((c : Thread nD τ).loc b))

/-! ## The body's term at an index -/

/-- The product's left operand index keeps the output row. -/
theorem lhs_dot_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- Its column is the contraction coordinate. -/
theorem lhs_dot_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- The right operand's row is the contraction coordinate. -/
theorem rhs_dot_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
/-- Its column is the output column. -/
theorem rhs_dot_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A [10000,64] block times a [64,64] matrix into the zero accumulator, at row p and column q: Σ_k x[p,k]·w[k,q]. -/
theorem matmul_zero_ix2 (x : FVec Ideal S10000x64 .f32) (w : FVec Ideal S64x64 .f32) (p : Fin 10000) (q : Fin 64) :
    matmul (F := Ideal) dot_S10000x64_S64x64_S10000x64_1_0_0_1_n_n none x w (constant (F := Ideal) S10000x64 .f32 0x00000000#32) (ix2 p q)
      = ∑ k : Fin 64, x (ix2 p k) * w (ix2 k q) := by
  simp only [matmul]
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 p q) ((ValueIdx.contrEquiv1 dot_S10000x64_S64x64_S10000x64_1_0_0_1_n_n 64 rfl rfl).symm k) = ix2 p k := funext fun a => Fin.ext (by
    match a with
    | ⟨0, _⟩ => exact lhs_dot_0 _ _
    | ⟨1, _⟩ => exact (lhs_dot_1 _ _).trans hk)
  have er : dot_S10000x64_S64x64_S10000x64_1_0_0_1_n_n.rhsIdx (ix2 p q) ((ValueIdx.contrEquiv1 dot_S10000x64_S64x64_S10000x64_1_0_0_1_n_n 64 rfl rfl).symm k) = ix2 k q := funext fun a => Fin.ext (by
    match a with
    | ⟨0, _⟩ => exact (rhs_dot_0 _ _).trans hk
    | ⟨1, _⟩ => exact rhs_dot_1 _ _)
  rw [el, er]

/-- The transposed weight matrix at (k, q) is the matrix at (q, k). -/
theorem transpose_w_ix2 (w : FVec Ideal S64x64 .f32) (k q : Fin 64) :
    transpose S64x64 [1, 0] w transposes_S64x64_p1_0_S64x64 (ix2 k q) = w (ix2 q k) :=
  transpose_ix2_apply w transposes_S64x64_p1_0_S64x64 k q

/-- The block times the TRANSPOSED matrix, at row p and column q: the row against row q of the matrix. -/
theorem matmulT_zero_ix2 (x : FVec Ideal S10000x64 .f32) (w : FVec Ideal S64x64 .f32) (p : Fin 10000) (q : Fin 64) :
    matmul (F := Ideal) dot_S10000x64_S64x64_S10000x64_1_0_0_1_n_n none x
        (transpose S64x64 [1, 0] w transposes_S64x64_p1_0_S64x64) (constant (F := Ideal) S10000x64 .f32 0x00000000#32) (ix2 p q)
      = ∑ k : Fin 64, x (ix2 p k) * w (ix2 q k) :=
  (matmul_zero_ix2 x _ p q).trans (Finset.sum_congr rfl fun k _ => congrArg (x (ix2 p k) * ·) (transpose_w_ix2 w k q))

/-- THE BODY'S TERM AT ROW p, FEATURE q: batch norm and relu of the row's linear combination. The two products
    contract the row with row q of each weight matrix (the body transposes the matrices first); the five rows are
    broadcast over the block's rows; the body's shape casts are between equal shapes. -/
theorem pay0_apply (x0 x1 : FVec Ideal S10000x64 .f32) (wl wr : FVec Ideal S64x64 .f32) (b g var mu be : FVec Ideal S1x64 .f32)
    (p : Fin 10000) (q : Fin 64) :
    k0_pay1 (F := Ideal) x0 x1 wl wr b g var mu be (ix2 p q)
      = Cert.Sage.bnRelu (Cert.Sage.lin0Row (fun k => x0 (ix2 p k)) (fun k => x1 (ix2 p k)) wl wr (fun o => b (ix2 0 o)) q)
          (g (ix2 0 q)) (be (ix2 0 q)) (mu (ix2 0 q)) (var (ix2 0 q)) := by
  unfold k0_pay1
  simp only [shapeCast_self, maximumf_apply, addf_apply, mulf_apply, subf_apply, broadcast_apply, broadcastTo_1b_ab_apply]
  rw [matmulT_zero_ix2, matmulT_zero_ix2]
  rfl

/-! ## The blocks -/

theorem zero_offsets : (![0, 0] : Fin 2 → Nat) = fun _ => 0 := funext fun a => by fin_cases a <;> rfl

/-- The index maps, decided once over the grid: the two node arrays' windows and the output's are at block (t, 0) at
    point t; the seven small arrays' windows stay at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_9.index t (0 : Fin 2) = t.val ∧ win0_9.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

/-- Every point is below 10. -/
theorem point_lt (t : Fin cfg0.N) : t.val < 10 := by
  have h : t.val < grid0.N := t.isLt
  rw [N_0] at h
  exact h

/-- Block t of the aggregated features is rows 10000·t … 10000·t + 9999 of the array. -/
theorem iblk0_0_apply (c : Dev nD) (t : Fin cfg0.N) (p : Fin 10000) (k : Fin 64) (r : Fin 100000)
    (hr : r.val = t.val * 10000 + p.val) :
    (iblk0 (F := Ideal) V c 0 t : FVec Ideal S10000x64 .f32) (ix2 p k) = (V c main_v21 : S100000x64.Idx → EReal) (ix2 r k) := by
  obtain ⟨⟨e0, e1⟩, -⟩ := idx_facts t
  unfold iblk0
  rw [View.read_apply]
  show V c main_v21 _ = V c main_v21 _
  refine congrArg (V c main_v21) (funext fun a => Fin.ext ?_)
  match a with
  | ⟨0, _⟩ => show win0_0.index t (0 : Fin 2) * 10000 + 1 * p.val = r.val; rw [e0, hr]; omega
  | ⟨1, _⟩ => show win0_0.index t (1 : Fin 2) * 64 + 1 * k.val = k.val; rw [e1]; omega

/-- Block t of the node features likewise. -/
theorem iblk0_1_apply (c : Dev nD) (t : Fin cfg0.N) (p : Fin 10000) (k : Fin 64) (r : Fin 100000)
    (hr : r.val = t.val * 10000 + p.val) :
    (iblk0 (F := Ideal) V c 1 t : FVec Ideal S10000x64 .f32) (ix2 p k) = (V c main_arg0 : S100000x64.Idx → EReal) (ix2 r k) := by
  obtain ⟨-, ⟨e0, e1⟩, -⟩ := idx_facts t
  unfold iblk0
  rw [View.read_apply]
  show V c main_arg0 _ = V c main_arg0 _
  refine congrArg (V c main_arg0) (funext fun a => Fin.ext ?_)
  match a with
  | ⟨0, _⟩ => show win0_1.index t (0 : Fin 2) * 10000 + 1 * p.val = r.val; rw [e0, hr]; omega
  | ⟨1, _⟩ => show win0_1.index t (1 : Fin 2) * 64 + 1 * k.val = k.val; rw [e1]; omega

/-- The one block of the left weight matrix is the matrix. -/
theorem iblk0_2_eq (c : Dev nD) (t : Fin cfg0.N) :
    (iblk0 (F := Ideal) V c 2 t : FVec Ideal S64x64 .f32) = (V c main_arg2 : S64x64.Idx → EReal) := by
  obtain ⟨-, -, -, ⟨e0, e1⟩, -⟩ := idx_facts t
  funext i
  obtain ⟨a, b, rfl⟩ : ∃ (a : Fin 64) (b : Fin 64), i = ix2 a b := ⟨i 0, i 1, eq_ix2 i⟩
  unfold iblk0
  rw [View.read_apply]
  show V c main_arg2 _ = V c main_arg2 _
  refine congrArg (V c main_arg2) (funext fun d => Fin.ext ?_)
  match d with
  | ⟨0, _⟩ => show win0_2.index t (0 : Fin 2) * 64 + 1 * a.val = a.val; rw [e0]; omega
  | ⟨1, _⟩ => show win0_2.index t (1 : Fin 2) * 64 + 1 * b.val = b.val; rw [e1]; omega

/-- The one block of the right weight matrix is the matrix. -/
theorem iblk0_4_eq (c : Dev nD) (t : Fin cfg0.N) :
    (iblk0 (F := Ideal) V c 4 t : FVec Ideal S64x64 .f32) = (V c main_arg4 : S64x64.Idx → EReal) := by
  obtain ⟨-, -, -, -, -, ⟨e0, e1⟩, -⟩ := idx_facts t
  funext i
  obtain ⟨a, b, rfl⟩ : ∃ (a : Fin 64) (b : Fin 64), i = ix2 a b := ⟨i 0, i 1, eq_ix2 i⟩
  unfold iblk0
  rw [View.read_apply]
  show V c main_arg4 _ = V c main_arg4 _
  refine congrArg (V c main_arg4) (funext fun d => Fin.ext ?_)
  match d with
  | ⟨0, _⟩ => show win0_4.index t (0 : Fin 2) * 64 + 1 * a.val = a.val; rw [e0]; omega
  | ⟨1, _⟩ => show win0_4.index t (1 : Fin 2) * 64 + 1 * b.val = b.val; rw [e1]; omega

/-- The one block of the bias row is the row. -/
theorem iblk0_3_eq (c : Dev nD) (t : Fin cfg0.N) :
    (iblk0 (F := Ideal) V c 3 t : FVec Ideal S1x64 .f32) = (V c main_v22 : S1x64.Idx → EReal) := by
  obtain ⟨-, -, -, -, ⟨e0, e1⟩, -⟩ := idx_facts t
  funext i
  obtain ⟨a, b, rfl⟩ : ∃ (a : Fin 1) (b : Fin 64), i = ix2 a b := ⟨i 0, i 1, eq_ix2 i⟩
  unfold iblk0
  rw [View.read_apply]
  show V c main_v22 _ = V c main_v22 _
  refine congrArg (V c main_v22) (funext fun d => Fin.ext ?_)
  match d with
  | ⟨0, _⟩ => show win0_3.index t (0 : Fin 2) * 1 + 1 * a.val = a.val; rw [e0]; omega
  | ⟨1, _⟩ => show win0_3.index t (1 : Fin 2) * 64 + 1 * b.val = b.val; rw [e1]; omega

/-- The one block of the scale row is the row. -/
theorem iblk0_5_eq (c : Dev nD) (t : Fin cfg0.N) :
    (iblk0 (F := Ideal) V c 5 t : FVec Ideal S1x64 .f32) = (V c main_v23 : S1x64.Idx → EReal) := by
  obtain ⟨-, -, -, -, -, -, ⟨e0, e1⟩, -⟩ := idx_facts t
  funext i
  obtain ⟨a, b, rfl⟩ : ∃ (a : Fin 1) (b : Fin 64), i = ix2 a b := ⟨i 0, i 1, eq_ix2 i⟩
  unfold iblk0
  rw [View.read_apply]
  show V c main_v23 _ = V c main_v23 _
  refine congrArg (V c main_v23) (funext fun d => Fin.ext ?_)
  match d with
  | ⟨0, _⟩ => show win0_5.index t (0 : Fin 2) * 1 + 1 * a.val = a.val; rw [e0]; omega
  | ⟨1, _⟩ => show win0_5.index t (1 : Fin 2) * 64 + 1 * b.val = b.val; rw [e1]; omega

/-- The one block of the shift row is the row. -/
theorem iblk0_6_eq (c : Dev nD) (t : Fin cfg0.N) :
    (iblk0 (F := Ideal) V c 6 t : FVec Ideal S1x64 .f32) = (V c main_v24 : S1x64.Idx → EReal) := by
  obtain ⟨-, -, -, -, -, -, -, ⟨e0, e1⟩, -⟩ := idx_facts t
  funext i
  obtain ⟨a, b, rfl⟩ : ∃ (a : Fin 1) (b : Fin 64), i = ix2 a b := ⟨i 0, i 1, eq_ix2 i⟩
  unfold iblk0
  rw [View.read_apply]
  show V c main_v24 _ = V c main_v24 _
  refine congrArg (V c main_v24) (funext fun d => Fin.ext ?_)
  match d with
  | ⟨0, _⟩ => show win0_6.index t (0 : Fin 2) * 1 + 1 * a.val = a.val; rw [e0]; omega
  | ⟨1, _⟩ => show win0_6.index t (1 : Fin 2) * 64 + 1 * b.val = b.val; rw [e1]; omega

/-- The one block of the running-mean row is the row. -/
theorem iblk0_7_eq (c : Dev nD) (t : Fin cfg0.N) :
    (iblk0 (F := Ideal) V c 7 t : FVec Ideal S1x64 .f32) = (V c main_v25 : S1x64.Idx → EReal) := by
  obtain ⟨-, -, -, -, -, -, -, -, ⟨e0, e1⟩, -⟩ := idx_facts t
  funext i
  obtain ⟨a, b, rfl⟩ : ∃ (a : Fin 1) (b : Fin 64), i = ix2 a b := ⟨i 0, i 1, eq_ix2 i⟩
  unfold iblk0
  rw [View.read_apply]
  show V c main_v25 _ = V c main_v25 _
  refine congrArg (V c main_v25) (funext fun d => Fin.ext ?_)
  match d with
  | ⟨0, _⟩ => show win0_7.index t (0 : Fin 2) * 1 + 1 * a.val = a.val; rw [e0]; omega
  | ⟨1, _⟩ => show win0_7.index t (1 : Fin 2) * 64 + 1 * b.val = b.val; rw [e1]; omega

/-- The one block of the running-variance row is the row. -/
theorem iblk0_8_eq (c : Dev nD) (t : Fin cfg0.N) :
    (iblk0 (F := Ideal) V c 8 t : FVec Ideal S1x64 .f32) = (V c main_v26 : S1x64.Idx → EReal) := by
  obtain ⟨-, -, -, -, -, -, -, -, -, ⟨e0, e1⟩⟩ := idx_facts t
  funext i
  obtain ⟨a, b, rfl⟩ : ∃ (a : Fin 1) (b : Fin 64), i = ix2 a b := ⟨i 0, i 1, eq_ix2 i⟩
  unfold iblk0
  rw [View.read_apply]
  show V c main_v26 _ = V c main_v26 _
  refine congrArg (V c main_v26) (funext fun d => Fin.ext ?_)
  match d with
  | ⟨0, _⟩ => show win0_8.index t (0 : Fin 2) * 1 + 1 * a.val = a.val; rw [e0]; omega
  | ⟨1, _⟩ => show win0_8.index t (1 : Fin 2) * 64 + 1 * b.val = b.val; rw [e1]; omega

/-! ## What a point writes back, and the whole array -/

/-- Layer 0 of the arrays the region finds. -/
abbrev hidden0 (c : Dev nD) : S100000x64.Idx → EReal :=
  Cert.Sage.layer0 (V c main_v21) (V c main_arg0) (V c main_arg2) (V c main_arg4)
    (fun o => V c main_v22 (ix2 0 o)) (fun o => V c main_v23 (ix2 0 o)) (fun o => V c main_v24 (ix2 0 o))
    (fun o => V c main_v25 (ix2 0 o)) (fun o => V c main_v26 (ix2 0 o))

/-- WHAT POINT t WRITES BACK is block t of layer 0 of the whole arrays: row p of the block is row 10000·t + p of the
    arrays, and layer 0 at a row reads only that row of the two node arrays. -/
theorem flushed_eq (c : Dev nD) (t : Fin cfg0.N) :
    (dat0 (F := Ideal) V c).flushed 9 t = ((cfg0.win 9).blk t).view.read (Elt Ideal) (hidden0 V c) := by
  show (cfg0.win 9).cut (grid0.coords t) ((dat0 (F := Ideal) V c).after 9 t) = _
  rw [after0_9]
  unfold out0_9
  rw [View.canon_unit_zero zero_offsets]
  simp only [View.ld_unit_zero (S := S10000x64) zero_offsets, View.ld_unit_zero (S := S64x64) zero_offsets,
    View.ld_unit_zero (S := S1x64) zero_offsets]
  funext j
  obtain ⟨p, q, rfl⟩ : ∃ (p : Fin 10000) (q : Fin 64), j = ix2 p q := ⟨j 0, j 1, eq_ix2 j⟩
  obtain ⟨-, -, ⟨e0, e1⟩, -⟩ := idx_facts t
  have hlt := point_lt t
  have hr : t.val * 10000 + p.val < 100000 := by have := p.isLt; omega
  refine (pay0_apply _ _ _ _ _ _ _ _ _ p q).trans ?_
  rw [View.read_apply]
  show _ = hidden0 V c (((cfg0.win 9).blk t).view.emb (ix2 p q))
  have he : ((cfg0.win 9).blk t).view.emb (ix2 p q) = ix2 (⟨t.val * 10000 + p.val, hr⟩ : Fin 100000) q :=
    funext fun a => Fin.ext (by
      match a with
      | ⟨0, _⟩ => show win0_9.index t (0 : Fin 2) * 10000 + 1 * p.val = t.val * 10000 + p.val; rw [e0]; omega
      | ⟨1, _⟩ => show win0_9.index t (1 : Fin 2) * 64 + 1 * q.val = q.val; rw [e1]; omega)
  rw [he]
  show _ = Cert.Sage.layer0At _ _ _ _ _ _ _ _ _ _ _
  unfold Cert.Sage.layer0At
  have h0 : (fun k => (iblk0 (F := Ideal) V c 0 t : FVec Ideal S10000x64 .f32) (ix2 p k))
      = fun k => (V c main_v21 : S100000x64.Idx → EReal) (ix2 ⟨t.val * 10000 + p.val, hr⟩ k) :=
    funext fun k => iblk0_0_apply V c t p k _ rfl
  have h1 : (fun k => (iblk0 (F := Ideal) V c 1 t : FVec Ideal S10000x64 .f32) (ix2 p k))
      = fun k => (V c main_arg0 : S100000x64.Idx → EReal) (ix2 ⟨t.val * 10000 + p.val, hr⟩ k) :=
    funext fun k => iblk0_1_apply V c t p k _ rfl
  rw [h0, h1, iblk0_2_eq V c t, iblk0_4_eq V c t, iblk0_3_eq V c t, iblk0_5_eq V c t, iblk0_6_eq V c t, iblk0_7_eq V c t,
    iblk0_8_eq V c t]

/-- An index of the hidden array is in point t's block iff each coordinate is in the block's range on its axis. -/
theorem mem_blk9 (t : Fin cfg0.N) (i : S100000x64.Idx) :
    i ∈ ((cfg0.win 9).blk t).view.set ↔ ∀ a : Fin 2, win0_9.index t a * S10000x64.size a ≤ (i a).val
      ∧ (i a).val < win0_9.index t a * S10000x64.size a + S10000x64.size a := by
  show i ∈ ((View.whole main_v27).slice (win0_9.rect t)).set ↔ _
  rw [View.set_slice_whole, Rect.mem_set_unit]
  exact Iff.rfl

/-- The ten blocks tile the array: row r is in the block of point r / 10000. -/
theorem cover9 (i : S100000x64.Idx) :
    ∃ t : Fin cfg0.N, (cfg0.win 9).flush t = true ∧ i ∈ ((cfg0.win 9).blk t).view.set := by
  have hi0 : (i 0).val < 100000 := (i 0).isLt
  have hi1 : (i 1).val < 64 := (i 1).isLt
  have hN : (i 0).val / 10000 < grid0.N := by rw [N_0]; omega
  obtain ⟨-, -, ⟨e0, e1⟩, -⟩ := idx_facts ⟨(i 0).val / 10000, hN⟩
  refine ⟨⟨(i 0).val / 10000, hN⟩, flush0_9 _, ?_⟩
  rw [mem_blk9]
  intro a
  match a with
  | ⟨0, _⟩ =>
    show win0_9.index ⟨(i 0).val / 10000, hN⟩ (0 : Fin 2) * 10000 ≤ (i 0).val
      ∧ (i 0).val < win0_9.index ⟨(i 0).val / 10000, hN⟩ (0 : Fin 2) * 10000 + 10000
    rw [e0]
    show (i 0).val / 10000 * 10000 ≤ (i 0).val ∧ (i 0).val < (i 0).val / 10000 * 10000 + 10000
    omega
  | ⟨1, _⟩ =>
    show win0_9.index ⟨(i 0).val / 10000, hN⟩ (1 : Fin 2) * 64 ≤ (i 1).val
      ∧ (i 1).val < win0_9.index ⟨(i 0).val / 10000, hN⟩ (1 : Fin 2) * 64 + 64
    rw [e1]
    omega

/-- THE HIDDEN ARRAY after region 0: layer 0 of the aggregated features, the node features, the two weight matrices and the
    five per-feature rows, as the region finds them. -/
theorem final0 (c : Dev nD) :
    (dat0 (F := Ideal) V c).arrAt 9 cfg0.N
      = Cert.Sage.layer0 (V c main_v21) (V c main_arg0) (V c main_arg2) (V c main_arg4)
          (fun o => V c main_v22 (ix2 0 o)) (fun o => V c main_v23 (ix2 0 o)) (fun o => V c main_v24 (ix2 0 o))
          (fun o => V c main_v25 (ix2 0 o)) (fun o => V c main_v26 (ix2 0 o)) :=
  (dat0 (F := Ideal) V c).arrAt_eq_of_cover 9 (hidden0 V c) (fun t _ => flushed_eq V c t) (cover9)

end Cert.KernelIdeal.Layer0

end
-- ==== Proof.Layer1Blocks.lean ====
/- Region 1 (the second SAGE layer and the row log-softmax), read as values: the result array it leaves is `Sage.layer1` of the arrays it finds. -/
import proofs.«122199_j26603027431847_1_alg».proof.Proof.Gen.KernelIdeal.Frame
import proofs.«122199_j26603027431847_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layer1

open Cert.KernelIdeal Cert.KernelIdeal.Gen

/-! # The body at an index

Row p, class q of the body's term is the log-softmax of row p's 32 logits, each logit the linear combination of row p of the
two node blocks with the weight matrices' rows and the bias. -/

/-! The matmul's operand indices, axis by axis. -/
theorem dot_lhs_0 (i : S10000x32.Idx) (q : dot_S10000x64_S64x32_S10000x32_1_0_0_1_n_n.contr.Idx) :
    (dot_S10000x64_S64x32_S10000x32_1_0_0_1_n_n.lhsIdx i q 0).val = (i 0).val := by
  unfold DotDims.lhsIdx
  rw [dif_neg (show ¬(0 : Fin S10000x64.rank) ∈ dot_S10000x64_S64x32_S10000x32_1_0_0_1_n_n.lhsBatch by decide), dif_pos (show (0 : Fin S10000x64.rank) ∈ dot_S10000x64_S64x32_S10000x32_1_0_0_1_n_n.lhsNonContracting by decide)]
  rfl
theorem dot_lhs_1 (i : S10000x32.Idx) (q : dot_S10000x64_S64x32_S10000x32_1_0_0_1_n_n.contr.Idx) :
    (dot_S10000x64_S64x32_S10000x32_1_0_0_1_n_n.lhsIdx i q 1).val = (q ⟨0, by decide⟩).val :=
  dot_S10000x64_S64x32_S10000x32_1_0_0_1_n_n.lhsIdx_val_of_single rfl i q
theorem dot_rhs_0 (i : S10000x32.Idx) (q : dot_S10000x64_S64x32_S10000x32_1_0_0_1_n_n.contr.Idx) :
    (dot_S10000x64_S64x32_S10000x32_1_0_0_1_n_n.rhsIdx i q 0).val = (q ⟨0, by decide⟩).val :=
  dot_S10000x64_S64x32_S10000x32_1_0_0_1_n_n.rhsIdx_val_of_single rfl i q
theorem dot_rhs_1 (i : S10000x32.Idx) (q : dot_S10000x64_S64x32_S10000x32_1_0_0_1_n_n.contr.Idx) :
    (dot_S10000x64_S64x32_S10000x32_1_0_0_1_n_n.rhsIdx i q 1).val = (i 1).val := by
  unfold DotDims.rhsIdx
  rw [dif_neg (show ¬(1 : Fin S64x32.rank) ∈ dot_S10000x64_S64x32_S10000x32_1_0_0_1_n_n.rhsBatch by decide), dif_pos (show (1 : Fin S64x32.rank) ∈ dot_S10000x64_S64x32_S10000x32_1_0_0_1_n_n.rhsNonContracting by decide)]
  rfl

/-- The matmul into the zero splat, read at row p and column q: the row of the left operand against the column of the right. -/
theorem matmul_at (x : FVec Ideal S10000x64 .f32) (w : FVec Ideal S64x32 .f32) (p : Fin 10000) (q : Fin 32) :
    matmul dot_S10000x64_S64x32_S10000x32_1_0_0_1_n_n none x w (constant (F := Ideal) S10000x32 .f32 0x00000000#32) (ix2 p q)
      = ∑ k : Fin 64, x (ix2 p k) * w (ix2 k q) := by
  simp only [matmul]
  rw [Ideal.matmul_constant_zero_apply, ← Equiv.sum_comp (ValueIdx.contrEquiv1 dot_S10000x64_S64x32_S10000x32_1_0_0_1_n_n 64 rfl rfl).symm]
  refine Finset.sum_congr rfl fun k _ => ?_
  have hk := ValueIdx.contrEquiv1_symm_val dot_S10000x64_S64x32_S10000x32_1_0_0_1_n_n 64 rfl rfl k
  have el : dot_S10000x64_S64x32_S10000x32_1_0_0_1_n_n.lhsIdx (ix2 p q) ((ValueIdx.contrEquiv1 dot_S10000x64_S64x32_S10000x32_1_0_0_1_n_n 64 rfl rfl).symm k) = ix2 p k := funext fun a => Fin.ext (by
    match a with
    | ⟨0, _⟩ => exact dot_lhs_0 _ _
    | ⟨1, _⟩ => exact (dot_lhs_1 _ _).trans hk)
  have er : dot_S10000x64_S64x32_S10000x32_1_0_0_1_n_n.rhsIdx (ix2 p q) ((ValueIdx.contrEquiv1 dot_S10000x64_S64x32_S10000x32_1_0_0_1_n_n 64 rfl rfl).symm k) = ix2 k q := funext fun a => Fin.ext (by
    match a with
    | ⟨0, _⟩ => exact (dot_rhs_0 _ _).trans hk
    | ⟨1, _⟩ => exact dot_rhs_1 _ _)
  rw [el, er]

/-- The transposed weight matrix at (k, o) is the matrix at (o, k). -/
theorem transpose_at (w : FVec Ideal S32x64 .f32) (k : Fin 64) (o : Fin 32) :
    transpose S64x32 [1, 0] w transposes_S32x64_p1_0_S64x32 (ix2 k o) = w (ix2 o k) :=
  transpose_ix2_apply w transposes_S32x64_p1_0_S64x32 k o

/-- The matmul against a transposed weight matrix: row p of the left operand against row q of the matrix. -/
theorem matmulT_at (x : FVec Ideal S10000x64 .f32) (w : FVec Ideal S32x64 .f32) (p : Fin 10000) (q : Fin 32) :
    matmul dot_S10000x64_S64x32_S10000x32_1_0_0_1_n_n none x (transpose S64x32 [1, 0] w transposes_S32x64_p1_0_S64x32)
        (constant (F := Ideal) S10000x32 .f32 0x00000000#32) (ix2 p q)
      = ∑ k : Fin 64, x (ix2 p k) * w (ix2 q k) :=
  (matmul_at x _ p q).trans (Finset.sum_congr rfl fun k _ => congrArg (x (ix2 p k) * ·) (transpose_at w k q))

/-- The linear part of the body at row p, class o: the two matmuls against the transposed weights and the bias row. -/
def lin (x0 x1 : FVec Ideal S10000x64 .f32) (wl wr : FVec Ideal S32x64 .f32) (b : FVec Ideal S1x32 .f32) : FVec Ideal S10000x32 .f32 :=
  addf (addf (matmul dot_S10000x64_S64x32_S10000x32_1_0_0_1_n_n none x0 (transpose S64x32 [1, 0] wl transposes_S32x64_p1_0_S64x32) (constant (F := Ideal) S10000x32 .f32 0x00000000#32))
      (broadcastTo S10000x32 b broadcasts_S1x32_S10000x32))
    (matmul dot_S10000x64_S64x32_S10000x32_1_0_0_1_n_n none x1 (transpose S64x32 [1, 0] wr transposes_S32x64_p1_0_S64x32) (constant (F := Ideal) S10000x32 .f32 0x00000000#32))

theorem lin_apply (x0 x1 : FVec Ideal S10000x64 .f32) (wl wr : FVec Ideal S32x64 .f32) (b : FVec Ideal S1x32 .f32) (p : Fin 10000) (o : Fin 32) :
    lin x0 x1 wl wr b (ix2 p o)
      = Cert.Sage.lin1Row (fun k => x0 (ix2 p k)) (fun k => x1 (ix2 p k)) wl wr (fun o => b (ix2 0 o)) o := by
  unfold lin Cert.Sage.lin1Row
  rw [addf_apply, addf_apply, matmulT_at, matmulT_at, broadcastTo_1b_ab_apply]

/-- The row maximum from −∞: the reduction over the class axis at row p. -/
theorem rowmax_at (v : FVec Ideal S10000x32 .f32) (hφ : FKind.Formats .f32)
    (hacc : (0xFF800000#32 : BitVec 32) = FKind.maximumf.neutral .f32 hφ) (p : Fin 10000) :
    multiReduction (F := Ideal) .maximumf [1] S10000 v 0xFF800000#32 reduces_S10000x32_S10000 hφ hacc (ix1 p)
      = Cert.Sage.rowMax (fun o => v (ix2 p o)) := by
  refine (Ideal.multiReduction_maximumf_single v 0xFF800000#32 reduces_S10000x32_S10000 hφ hacc (ix1 p)).trans ?_
  unfold Cert.Sage.rowMax
  refine congrArg (fun f => (Finset.univ : Finset (Fin 32)).fold max Cert.Sage.negInf32 f) (funext fun o => ?_)
  show v (reduces_S10000x32_S10000.lift (ix1 p) o) = v (ix2 p o)
  refine congrArg v (funext fun a => Fin.ext ?_)
  match a with
  | ⟨0, _⟩ => rfl
  | ⟨1, _⟩ => rfl

/-- The row sum: the reduction over the class axis at row p. -/
theorem rowsum_at (v : FVec Ideal S10000x32 .f32) (hφ : FKind.Formats .f32)
    (hacc : (0x00000000#32 : BitVec 32) = FKind.add.neutral .f32 hφ) (p : Fin 10000) :
    multiReduction (F := Ideal) .add [1] S10000 v 0x00000000#32 reduces_S10000x32_S10000 hφ hacc (ix1 p)
      = ∑ o : Fin 32, v (ix2 p o) := by
  refine (Ideal.multiReduction_add_single v 0x00000000#32 reduces_S10000x32_S10000 hφ hacc (ix1 p)).trans ?_
  refine Finset.sum_congr rfl fun o _ => ?_
  refine congrArg v (funext fun a => Fin.ext ?_)
  match a with
  | ⟨0, _⟩ => rfl
  | ⟨1, _⟩ => rfl

/-- A column [a] cast to [a, 1] reads, at (p, z), the column at p. -/
theorem shapeCast_a_a1_apply {α : Type} {a : ℕ} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

/-- A column [a, 1] broadcast to [a, b] reads, at (p, c), the column at (p, 0). -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The row maximum, laid out as the body lays it: a column broadcast over the classes. -/
def colMax (L : FVec Ideal S10000x32 .f32) : FVec Ideal S10000x32 .f32 :=
  broadcastTo S10000x32 (shapeCast S10000x1 (multiReduction (F := Ideal) .maximumf [1] S10000 L 0xFF800000#32 reduces_S10000x32_S10000 (.inl rfl) rfl) shapeCasts_S10000_S10000x1) broadcasts_S10000x1_S10000x32

/-- The body's log-softmax of a [10000, 32] block of logits. -/
def lsm (L : FVec Ideal S10000x32 .f32) : FVec Ideal S10000x32 .f32 :=
  subf (subf L (colMax L))
    (broadcastTo S10000x32 (log (shapeCast S10000x1 (multiReduction (F := Ideal) .add [1] S10000 (exp (subf L (colMax L))) 0x00000000#32 reduces_S10000x32_S10000 (.inl rfl) rfl) shapeCasts_S10000_S10000x1)) broadcasts_S10000x1_S10000x32)

theorem colMax_apply (L : FVec Ideal S10000x32 .f32) (p : Fin 10000) (q : Fin 32) :
    colMax L (ix2 p q) = Cert.Sage.rowMax (fun o => L (ix2 p o)) := by
  unfold colMax
  rw [broadcastTo_a1_ab_apply, shapeCast_a_a1_apply]
  exact rowmax_at L _ _ p

theorem lsm_apply (L : FVec Ideal S10000x32 .f32) (p : Fin 10000) (q : Fin 32) :
    lsm L (ix2 p q) = Cert.Sage.lsmRow (fun o => L (ix2 p o)) q := by
  unfold lsm Cert.Sage.lsmRow
  rw [subf_apply, subf_apply, colMax_apply, broadcastTo_a1_ab_apply]
  show _ - Ideal.log (shapeCast S10000x1 _ shapeCasts_S10000_S10000x1 (ix2 p (0 : Fin 1))) = _
  rw [shapeCast_a_a1_apply]
  refine congrArg (fun s => _ - Ideal.log s) ((rowsum_at _ _ _ p).trans (Finset.sum_congr rfl fun o _ => ?_))
  show Ideal.exp (subf L (colMax L) (ix2 p o)) = _
  rw [subf_apply, colMax_apply]

/-- The body's term is the log-softmax of the linear part. -/
theorem pay1_eq (x0 x1 : FVec Ideal S10000x64 .f32) (wl wr : FVec Ideal S32x64 .f32) (b : FVec Ideal S1x32 .f32) :
    k1_pay1 (F := Ideal) x0 x1 wl wr b = lsm (lin x0 x1 wl wr b) := by
  have h0 := shapeCast_self x0 shapeCasts_S10000x64_S10000x64
  have h1 := shapeCast_self x1 shapeCasts_S10000x64_S10000x64
  have h2 := shapeCast_self b shapeCasts_S1x32_S1x32
  show lsm (lin (shapeCast S10000x64 x0 shapeCasts_S10000x64_S10000x64) (shapeCast S10000x64 x1 shapeCasts_S10000x64_S10000x64) wl wr (shapeCast S1x32 b shapeCasts_S1x32_S1x32)) = _
  rw [h0, h1, h2]

/-- THE BODY AT AN INDEX: row p, class q of the body's result is the log-softmax of row p's 32 logits. -/
theorem pay1_apply (x0 x1 : FVec Ideal S10000x64 .f32) (wl wr : FVec Ideal S32x64 .f32) (b : FVec Ideal S1x32 .f32) (p : Fin 10000) (q : Fin 32) :
    k1_pay1 (F := Ideal) x0 x1 wl wr b (ix2 p q)
      = Cert.Sage.lsmRow (fun o' => Cert.Sage.lin1Row (fun k => x0 (ix2 p k)) (fun k => x1 (ix2 p k)) wl wr (fun o => b (ix2 0 o)) o') q := by
  rw [pay1_eq, lsm_apply]
  exact congrArg (fun f => Cert.Sage.lsmRow f q) (funext fun o => lin_apply x0 x1 wl wr b p o)

-- the TensorCore's buffer contents when the region is entered
variable (V : (c : Dev nD) → (b : Ref sig .tc) → Buf (Elt Ideal) ((c : Thread nD τ).loc b))

/-! # From blocks to the array

Point t's node blocks are rows 10000·t … 10000·t + 9999 of the node arrays, its small blocks the whole small arrays; what it
writes back is therefore block t of layer 1 of the arrays, and the ten blocks tile the output array. -/

/-- The printed index maps, decided once over the grid: the node windows and the output window are at block t, the small windows at block 0. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem lt_N1 (t : Fin cfg1.N) : t.val < 10 := lt_of_lt_of_eq t.isLt N_1

/-- Window 0's block at point t is rows 10000·t … 10000·t + 9999 of the aggregated features. -/
theorem blk0_apply (c : Dev nD) (t : Fin cfg1.N) (p : Fin 10000) (k : Fin 64) (r : Fin 100000) (hr : r.val = t.val * 10000 + p.val) :
    (iblk1 (F := Ideal) V c 0 t : Vec Ideal S10000x64 .f32) (ix2 p k) = (V c main_v45 : S100000x64.Idx → EReal) (ix2 r k) := by
  obtain ⟨e0, e1, -⟩ := idx_facts1 t
  unfold iblk1
  rw [View.read_apply]
  show V c main_v45 (((cfg1.win 0).blk t).view.emb (ix2 p k)) = V c main_v45 (ix2 r k)
  refine congrArg _ (funext fun a => Fin.ext ?_)
  match a with
  | ⟨0, _⟩ => show win1_0.index t (0 : Fin 2) * 10000 + 1 * p.val = r.val; rw [e0, hr]; omega
  | ⟨1, _⟩ => show win1_0.index t (1 : Fin 2) * 64 + 1 * k.val = k.val; rw [e1]; omega

/-- Window 1's block at point t is the same rows of the hidden features. -/
theorem blk1_apply (c : Dev nD) (t : Fin cfg1.N) (p : Fin 10000) (k : Fin 64) (r : Fin 100000) (hr : r.val = t.val * 10000 + p.val) :
    (iblk1 (F := Ideal) V c 1 t : Vec Ideal S10000x64 .f32) (ix2 p k) = (V c main_v27 : S100000x64.Idx → EReal) (ix2 r k) := by
  obtain ⟨-, -, e0, e1, -⟩ := idx_facts1 t
  unfold iblk1
  rw [View.read_apply]
  show V c main_v27 (((cfg1.win 1).blk t).view.emb (ix2 p k)) = V c main_v27 (ix2 r k)
  refine congrArg _ (funext fun a => Fin.ext ?_)
  match a with
  | ⟨0, _⟩ => show win1_1.index t (0 : Fin 2) * 10000 + 1 * p.val = r.val; rw [e0, hr]; omega
  | ⟨1, _⟩ => show win1_1.index t (1 : Fin 2) * 64 + 1 * k.val = k.val; rw [e1]; omega

/-- Window 2's block is the whole left weight matrix, at every point. -/
theorem blk2_eq (c : Dev nD) (t : Fin cfg1.N) :
    (iblk1 (F := Ideal) V c 2 t : Vec Ideal S32x64 .f32) = (V c main_arg9 : S32x64.Idx → EReal) := by
  obtain ⟨-, -, -, -, e0, e1, -⟩ := idx_facts1 t
  funext i
  unfold iblk1
  rw [View.read_apply]
  show V c main_arg9 (((cfg1.win 2).blk t).view.emb i) = V c main_arg9 i
  refine congrArg _ (funext fun a => Fin.ext ?_)
  match a with
  | ⟨0, _⟩ => show win1_2.index t (0 : Fin 2) * 32 + 1 * (i 0).val = (i 0).val; rw [e0]; omega
  | ⟨1, _⟩ => show win1_2.index t (1 : Fin 2) * 64 + 1 * (i 1).val = (i 1).val; rw [e1]; omega

/-- Window 3's block is the whole bias row, at every point. -/
theorem blk3_eq (c : Dev nD) (t : Fin cfg1.N) :
    (iblk1 (F := Ideal) V c 3 t : Vec Ideal S1x32 .f32) = (V c main_v46 : S1x32.Idx → EReal) := by
  obtain ⟨-, -, -, -, -, -, e0, e1, -⟩ := idx_facts1 t
  funext i
  unfold iblk1
  rw [View.read_apply]
  show V c main_v46 (((cfg1.win 3).blk t).view.emb i) = V c main_v46 i
  refine congrArg _ (funext fun a => Fin.ext ?_)
  match a with
  | ⟨0, _⟩ => show win1_3.index t (0 : Fin 2) * 1 + 1 * (i 0).val = (i 0).val; rw [e0]; omega
  | ⟨1, _⟩ => show win1_3.index t (1 : Fin 2) * 32 + 1 * (i 1).val = (i 1).val; rw [e1]; omega

/-- Window 4's block is the whole right weight matrix, at every point. -/
theorem blk4_eq (c : Dev nD) (t : Fin cfg1.N) :
    (iblk1 (F := Ideal) V c 4 t : Vec Ideal S32x64 .f32) = (V c main_arg11 : S32x64.Idx → EReal) := by
  obtain ⟨-, -, -, -, -, -, -, -, e0, e1, -⟩ := idx_facts1 t
  funext i
  unfold iblk1
  rw [View.read_apply]
  show V c main_arg11 (((cfg1.win 4).blk t).view.emb i) = V c main_arg11 i
  refine congrArg _ (funext fun a => Fin.ext ?_)
  match a with
  | ⟨0, _⟩ => show win1_4.index t (0 : Fin 2) * 32 + 1 * (i 0).val = (i 0).val; rw [e0]; omega
  | ⟨1, _⟩ => show win1_4.index t (1 : Fin 2) * 64 + 1 * (i 1).val = (i 1).val; rw [e1]; omega

theorem hz1 : (![0, 0] : Fin 2 → Nat) = fun _ => 0 := funext fun a => by fin_cases a <;> rfl

/-- WHAT POINT t WRITES BACK is block t of layer 1 of the arrays the region found. -/
theorem flushed1_eq (c : Dev nD) (t : Fin cfg1.N) :
    (dat1 (F := Ideal) V c).flushed 5 t = ((cfg1.win 5).blk t).view.read (Elt Ideal)
      (Cert.Sage.layer1 (V c main_v45) (V c main_v27) (V c main_arg9) (V c main_arg11) (fun o => V c main_v46 (ix2 0 o))) := by
  show (cfg1.win 5).cut (grid1.coords t) ((dat1 (F := Ideal) V c).after 5 t) = _
  rw [after1_5]
  unfold out1_5
  rw [View.canon_unit_zero hz1]
  simp only [View.ld_unit_zero (S := S10000x64) hz1, View.ld_unit_zero (S := S32x64) hz1, View.ld_unit_zero (S := S1x32) hz1]
  rw [blk2_eq, blk3_eq, blk4_eq]
  obtain ⟨-, -, -, -, -, -, -, -, -, -, e0, e1⟩ := idx_facts1 t
  have ht := lt_N1 t
  funext j
  obtain ⟨p, q, rfl⟩ : ∃ (p : Fin 10000) (q : Fin 32), j = ix2 p q := ⟨j 0, j 1, eq_ix2 j⟩
  have hr : t.val * 10000 + p.val < 100000 := by have := p.isLt; omega
  have hemb : ((cfg1.win 5).blk t).view.emb (ix2 p q) = (ix2 (⟨t.val * 10000 + p.val, hr⟩ : Fin 100000) q : S100000x32.Idx) := by
    funext a; apply Fin.ext
    match a with
    | ⟨0, _⟩ => show win1_5.index t (0 : Fin 2) * 10000 + 1 * p.val = t.val * 10000 + p.val; rw [e0]; omega
    | ⟨1, _⟩ => show win1_5.index t (1 : Fin 2) * 32 + 1 * q.val = q.val; rw [e1]; omega
  rw [View.read_apply, hemb, Cert.Sage.layer1_ix2]
  refine (pay1_apply _ _ _ _ _ p q).trans ?_
  unfold Cert.Sage.layer1At
  refine congrArg (fun f => Cert.Sage.lsmRow f q) (funext fun o => ?_)
  refine congrArg₂ (fun a h => Cert.Sage.lin1Row a h _ _ _ o) (funext fun k => ?_) (funext fun k => ?_)
  · exact blk0_apply V c t p k _ rfl
  · exact blk1_apply V c t p k _ rfl

/-- An index of the output array is in point t's block iff each coordinate is in the block's range on its axis. -/
theorem mem_blk1 (t : Fin cfg1.N) (i : S100000x32.Idx) :
    i ∈ ((cfg1.win 5).blk t).view.set ↔ ∀ a : Fin 2, win1_5.index t a * S10000x32.size a ≤ (i a).val ∧ (i a).val < win1_5.index t a * S10000x32.size a + S10000x32.size a := by
  show i ∈ ((View.whole main_v47).slice (win1_5.rect t)).set ↔ _
  rw [View.set_slice_whole, Rect.mem_set_unit]
  exact Iff.rfl

/-- The ten blocks tile the output array: row r is in the block of point r / 10000. -/
theorem cover1 (i : S100000x32.Idx) : ∃ t : Fin cfg1.N, (cfg1.win 5).flush t = true ∧ i ∈ ((cfg1.win 5).blk t).view.set := by
  have hi0 : (i 0).val < 100000 := (i 0).isLt
  have hi1 : (i 1).val < 32 := (i 1).isLt
  have hlt : (i 0).val / 10000 < cfg1.N := by rw [show cfg1.N = 10 from N_1]; omega
  obtain ⟨-, -, -, -, -, -, -, -, -, -, e0, e1⟩ := idx_facts1 ⟨(i 0).val / 10000, hlt⟩
  refine ⟨⟨(i 0).val / 10000, hlt⟩, flush1_5 _, ?_⟩
  rw [mem_blk1]
  intro a
  match a with
  | ⟨0, _⟩ =>
    show win1_5.index ⟨(i 0).val / 10000, hlt⟩ (0 : Fin 2) * 10000 ≤ (i 0).val ∧ (i 0).val < win1_5.index ⟨(i 0).val / 10000, hlt⟩ (0 : Fin 2) * 10000 + 10000
    rw [e0]
    show (i 0).val / 10000 * 10000 ≤ (i 0).val ∧ (i 0).val < (i 0).val / 10000 * 10000 + 10000
    omega
  | ⟨1, _⟩ =>
    show win1_5.index ⟨(i 0).val / 10000, hlt⟩ (1 : Fin 2) * 32 ≤ (i 1).val ∧ (i 1).val < win1_5.index ⟨(i 0).val / 10000, hlt⟩ (1 : Fin 2) * 32 + 32
    rw [e1]
    omega

/-- THE RESULT ARRAY after region 1: layer 1 of the aggregated hidden features, the hidden features, the two weight matrices and
    the bias row, as the region finds them. -/
theorem final1 (c : Dev nD) :
    (dat1 (F := Ideal) V c).arrAt 5 cfg1.N
      = Cert.Sage.layer1 (V c main_v45) (V c main_v27) (V c main_arg9) (V c main_arg11) (fun o => V c main_v46 (ix2 0 o)) :=
  (dat1 (F := Ideal) V c).arrAt_eq_of_cover 5 _ (fun t _ => flushed1_eq V c t) (fun i => cover1 i)

end Cert.KernelIdeal.Layer1

end
-- ==== Proof.KernelValue.lean ====
/- The kernel's result as ONE function of its arguments: the frame run's result array, read through the two regions and the two host
   stretches. result = layer1 (mean aggregation of H) H …, with H = layer0 (mean aggregation of x) x … the hidden array. -/
import proofs.«122199_j26603027431847_1_alg».proof.Proof.KernelRun
import proofs.«122199_j26603027431847_1_alg».proof.Proof.KernelHost
import proofs.«122199_j26603027431847_1_alg».proof.Proof.Spec
import proofs.«122199_j26603027431847_1_alg».proof.Proof.Layer0Blocks
import proofs.«122199_j26603027431847_1_alg».proof.Proof.Layer1Blocks
import Idealize.ShloMosaic.Lib.ValueIdx

set_option maxRecDepth 16384

noncomputable section

open Idealize.ShloMosaic Idealize.ShloMosaic.TcCoe Idealize.SL.Sem Idealize.ShloMosaic.ValueIdx

namespace Cert.KernelIdeal.ValueRead

open Cert.KernelIdeal Cert.KernelIdeal.Gen Cert.KernelIdeal.HostRead

variable (m : (ℓ : Loc nD τ sig) → Buf (Elt Ideal) ℓ) (ρ : Dev nD → PrngReg)

/-- The hidden features: layer 0 of the aggregated and the own node features. -/
def hidden (c : Dev nD) : S100000x64.Idx → EReal :=
  Cert.Sage.layer0 (segMean (F := Ideal) (m ((c : Thread nD τ).loc main_arg0)) (m ((c : Thread nD τ).loc main_arg1)))
    (m ((c : Thread nD τ).loc main_arg0)) (m ((c : Thread nD τ).loc main_arg2)) (m ((c : Thread nD τ).loc main_arg4))
    (fun o => (m ((c : Thread nD τ).loc main_arg3) : S64.Idx → EReal) (ix1 o))
    (fun o => (m ((c : Thread nD τ).loc main_arg5) : S64.Idx → EReal) (ix1 o))
    (fun o => (m ((c : Thread nD τ).loc main_arg6) : S64.Idx → EReal) (ix1 o))
    (fun o => (m ((c : Thread nD τ).loc main_arg7) : S64.Idx → EReal) (ix1 o))
    (fun o => (m ((c : Thread nD τ).loc main_arg8) : S64.Idx → EReal) (ix1 o))

/-- The result: layer 1 of the aggregated and the own hidden features. -/
def result (c : Dev nD) : S100000x32.Idx → EReal :=
  Cert.Sage.layer1 (segMean (F := Ideal) (hidden m c) (m ((c : Thread nD τ).loc main_arg1))) (hidden m c)
    (m ((c : Thread nD τ).loc main_arg9)) (m ((c : Thread nD τ).loc main_arg11))
    (fun o => (m ((c : Thread nD τ).loc main_arg10) : S32.Idx → EReal) (ix1 o))

/-- Region 0 leaves the hidden features. -/
theorem W2_hidden_eq (c : Dev nD) : W2 m ρ c (Proc.devRef .tc main_v27) = hidden m c := by
  rw [W2_hidden, Cert.KernelIdeal.Layer0.final0 (V1 m ρ) c, V1_agg, V1_arg0, V1_arg2, V1_arg4]
  rw [show (fun o : Fin 64 => (V1 m ρ c main_v22 : S1x64.Idx → EReal) (ix2 0 o)) = _ from funext (V1_row_v22 m ρ c),
    show (fun o : Fin 64 => (V1 m ρ c main_v23 : S1x64.Idx → EReal) (ix2 0 o)) = _ from funext (V1_row_v23 m ρ c),
    show (fun o : Fin 64 => (V1 m ρ c main_v24 : S1x64.Idx → EReal) (ix2 0 o)) = _ from funext (V1_row_v24 m ρ c),
    show (fun o : Fin 64 => (V1 m ρ c main_v25 : S1x64.Idx → EReal) (ix2 0 o)) = _ from funext (V1_row_v25 m ρ c),
    show (fun o : Fin 64 => (V1 m ρ c main_v26 : S1x64.Idx → EReal) (ix2 0 o)) = _ from funext (V1_row_v26 m ρ c)]
  rfl

/-- Region 1 leaves the result. -/
theorem W4_result_eq (c : Dev nD) : W4 m ρ c (Proc.devRef .tc main_v47) = result m c := by
  rw [show W4 m ρ c (Proc.devRef .tc main_v47) = (dat1 (V3 m ρ) c).arrAt 5 cfg1.N from W4_arr m ρ c 5,
    Cert.KernelIdeal.Layer1.final1 (V3 m ρ) c, V3_agg, V3_hidden, V3_arg9, V3_arg11, W2_hidden_eq]
  rw [show (fun o : Fin 32 => (V3 m ρ c main_v46 : S1x32.Idx → EReal) (ix2 0 o)) = _ from funext (V3_row_v46 m ρ c)]
  rfl

/-- The kernel's run, read: every weakly fair execution terminates with the result array at `result` of the launch contents of the
    arguments, the arguments unchanged. -/
theorem run : θ_run defs (onTc (τ := τ) (main (F := Ideal))) ⟨m, fun _ => 0, ρ⟩ (fun r => ∀ c : Dev nD,
      r.2.mem ((c.tc : Thread nD τ).loc main_v47) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (W4_result_eq m ρ c), (h c).2⟩)
    (Cert.KernelIdeal.GenP.run_main m ρ)

end Cert.KernelIdeal.ValueRead

end
-- ==== Proof.RefValue.lean ====
/- The reference's run, read in three stretches of its operation list.
   The first stretch (53 operations: the mean aggregation of x, the first linear combination, the batch norm and relu) leaves the hidden array;
   the second (32 operations: the mean aggregation of the hidden array and the second linear combination) leaves the logits; the third (15 operations:
   the row log-softmax) the result. A later stretch reads the earlier one's array several times over, so it is read with that array's contents held
   as ONE value, not as its term. Each stretch is the fold of its operations' results, and the whole list's fold is the later stretches' folds over
   the earlier ones'. -/
import proofs.«122199_j26603027431847_1_alg».proof.Proof.RefRead
import Idealize.ShloMosaic.Lib.StableHlo.Run
import Idealize.ShloMosaic.Lib.Pipeline.Frame

noncomputable section

namespace Cert.ReferenceIdeal.RunRead

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-- The first stretch: through relu, whose result is the hidden array. -/
abbrev opsA : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst (constant S_ .f32 0x00000000#32),
    unary main_cst main_v11 (broadcastInDim S100000x64 ![] bcast_S_S100000x64 : (⟨S_, .f32⟩ : BufTy).Contents (Elt F) → (⟨S100000x64, .f32⟩ : BufTy).Contents (Elt F)),
    unary main_v3 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_1 (constant S_ .f32 0x3F800000#32),
    unary main_cst_1 main_v14 (broadcastInDim S1600000x1 ![] bcast_S_S1600000x1 : (⟨S_, .f32⟩ : BufTy).Contents (Elt F) → (⟨S1600000x1, .f32⟩ : BufTy).Contents (Elt F)),
    nullary main_cst_2 (constant S_ .f32 0x00000000#32),
    unary main_cst_2 main_v15 (broadcastInDim S100000x1 ![] bcast_S_S100000x1 : (⟨S_, .f32⟩ : BufTy).Contents (Elt F) → (⟨S100000x1, .f32⟩ : BufTy).Contents (Elt F)),
    unary main_v3 main_v16 (broadcastInDim S1600000x1 ![0] bcast_S1600000_S1600000x1_0 : (⟨S1600000, .i32⟩ : BufTy).Contents (Elt F) → (⟨S1600000x1, .i32⟩ : BufTy).Contents (Elt F)),
    ternary main_v15 main_v16 main_v14 main_v17 ((fun x i u => Host.scatterAdd scatter_S100000x1_S1600000x1_S1600000x1_1_0_0_1 x i u) : (⟨S100000x1, .f32⟩ : BufTy).Contents (Elt F) → (⟨S1600000x1, .i32⟩ : BufTy).Contents (Elt F) → (⟨S1600000x1, .f32⟩ : BufTy).Contents (Elt F) → (⟨S100000x1, .f32⟩ : BufTy).Contents (Elt F)),
    nullary main_cst_3 (constant S_ .f32 0x3F800000#32),
    unary main_cst_3 main_v18 (broadcastInDim S100000x1 ![] bcast_S_S100000x1 : (⟨S_, .f32⟩ : BufTy).Contents (Elt F) → (⟨S100000x1, .f32⟩ : BufTy).Contents (Elt F)),
    binary main_v17 main_v18 main_v19 (maximumf : (⟨S100000x1, .f32⟩ : BufTy).Contents (Elt F) → (⟨S100000x1, .f32⟩ : BufTy).Contents (Elt F) → (⟨S100000x1, .f32⟩ : BufTy).Contents (Elt F)),
    unary main_v19 main_v20 (broadcastInDim S100000x64 ![0, 1] bcast_S100000x1_S100000x64_0_1 : (⟨S100000x1, .f32⟩ : BufTy).Contents (Elt F) → (⟨S100000x64, .f32⟩ : BufTy).Contents (Elt F)),
    binary main_v13 main_v20 main_v21 (Host.divf : (⟨S100000x64, .f32⟩ : BufTy).Contents (Elt F) → (⟨S100000x64, .f32⟩ : BufTy).Contents (Elt F) → (⟨S100000x64, .f32⟩ : BufTy).Contents (Elt F)),
    unary main_arg2 main_v22 ((transpose S64x64 [1, 0] · transposes_S64x64_S64x64_1_0) : (⟨S64x64, .f32⟩ : BufTy).Contents (Elt F) → (⟨S64x64, .f32⟩ : BufTy).Contents (Elt F)),
    binary main_v21 main_v22 main_v23 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg3 main_v24 (broadcastInDim S1x64 ![1] bcast_S64_S1x64_1 : (⟨S64, .f32⟩ : BufTy).Contents (Elt F) → (⟨S1x64, .f32⟩ : BufTy).Contents (Elt F)),
    unary main_v24 main_v25 (broadcastInDim S100000x64 ![0, 1] bcast_S1x64_S100000x64_0_1 : (⟨S1x64, .f32⟩ : BufTy).Contents (Elt F) → (⟨S100000x64, .f32⟩ : BufTy).Contents (Elt F)),
    binary main_v23 main_v25 main_v26 (addf : (⟨S100000x64, .f32⟩ : BufTy).Contents (Elt F) → (⟨S100000x64, .f32⟩ : BufTy).Contents (Elt F) → (⟨S100000x64, .f32⟩ : BufTy).Contents (Elt F)),
    unary main_arg4 main_v27 ((transpose S64x64 [1, 0] · transposes_S64x64_S64x64_1_0) : (⟨S64x64, .f32⟩ : BufTy).Contents (Elt F) → (⟨S64x64, .f32⟩ : BufTy).Contents (Elt F)),
    binary main_arg0 main_v27 main_v28 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v26 main_v28 main_v29 (addf : (⟨S100000x64, .f32⟩ : BufTy).Contents (Elt F) → (⟨S100000x64, .f32⟩ : BufTy).Contents (Elt F) → (⟨S100000x64, .f32⟩ : BufTy).Contents (Elt F)),
    unary main_arg7 main_v30 (broadcastInDim S1x64 ![1] bcast_S64_S1x64_1 : (⟨S64, .f32⟩ : BufTy).Contents (Elt F) → (⟨S1x64, .f32⟩ : BufTy).Contents (Elt F)),
    unary main_v30 main_v31 (broadcastInDim S100000x64 ![0, 1] bcast_S1x64_S100000x64_0_1 : (⟨S1x64, .f32⟩ : BufTy).Contents (Elt F) → (⟨S100000x64, .f32⟩ : BufTy).Contents (Elt F)),
    binary main_v29 main_v31 main_v32 (subf : (⟨S100000x64, .f32⟩ : BufTy).Contents (Elt F) → (⟨S100000x64, .f32⟩ : BufTy).Contents (Elt F) → (⟨S100000x64, .f32⟩ : BufTy).Contents (Elt F)),
    nullary main_cst_4 (constant S_ .f32 0x3727C5AC#32),
    unary main_cst_4 main_v33 (broadcastInDim S64 ![] bcast_S_S64 : (⟨S_, .f32⟩ : BufTy).Contents (Elt F) → (⟨S64, .f32⟩ : BufTy).Contents (Elt F)),
    binary main_arg8 main_v33 main_v34 (addf : (⟨S64, .f32⟩ : BufTy).Contents (Elt F) → (⟨S64, .f32⟩ : BufTy).Contents (Elt F) → (⟨S64, .f32⟩ : BufTy).Contents (Elt F)),
    unary main_v34 main_v35 (Host.sqrt : (⟨S64, .f32⟩ : BufTy).Contents (Elt F) → (⟨S64, .f32⟩ : BufTy).Contents (Elt F)),
    binary main_arg5 main_v35 main_v36 (Host.divf : (⟨S64, .f32⟩ : BufTy).Contents (Elt F) → (⟨S64, .f32⟩ : BufTy).Contents (Elt F) → (⟨S64, .f32⟩ : BufTy).Contents (Elt F)),
    unary main_v36 main_v37 (broadcastInDim S1x64 ![1] bcast_S64_S1x64_1 : (⟨S64, .f32⟩ : BufTy).Contents (Elt F) → (⟨S1x64, .f32⟩ : BufTy).Contents (Elt F)),
    unary main_v37 main_v38 (broadcastInDim S100000x64 ![0, 1] bcast_S1x64_S100000x64_0_1 : (⟨S1x64, .f32⟩ : BufTy).Contents (Elt F) → (⟨S100000x64, .f32⟩ : BufTy).Contents (Elt F)),
    binary main_v32 main_v38 main_v39 (mulf : (⟨S100000x64, .f32⟩ : BufTy).Contents (Elt F) → (⟨S100000x64, .f32⟩ : BufTy).Contents (Elt F) → (⟨S100000x64, .f32⟩ : BufTy).Contents (Elt F)),
    unary main_arg6 main_v40 (broadcastInDim S1x64 ![1] bcast_S64_S1x64_1 : (⟨S64, .f32⟩ : BufTy).Contents (Elt F) → (⟨S1x64, .f32⟩ : BufTy).Contents (Elt F)),
    unary main_v40 main_v41 (broadcastInDim S100000x64 ![0, 1] bcast_S1x64_S100000x64_0_1 : (⟨S1x64, .f32⟩ : BufTy).Contents (Elt F) → (⟨S100000x64, .f32⟩ : BufTy).Contents (Elt F)),
    binary main_v39 main_v41 main_v42 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v42) (TRef.of (T := ⟨S100000x64, .f32⟩) main_call0_v0) (TRef.of (T := ⟨S100000x64, .f32⟩) main_v43) maximumf ]

/-- The second stretch: from the hidden array to the logits. -/
abbrev opsB : List (HloOp τ sig (Elt F)) :=
  [ nullary main_c_5 (constantI S_ 32 0#32),
    unary main_c_5 main_v44 (broadcastInDim S1600000 ![] bcast_S_S1600000 : (⟨S_, .i32⟩ : BufTy).Contents (Elt F) → (⟨S1600000, .i32⟩ : BufTy).Contents (Elt F)),
    binary main_v1 main_v44 main_v45 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v46 (broadcastInDim S1600000 ![] bcast_S_S1600000 : (⟨S_, .i32⟩ : BufTy).Contents (Elt F) → (⟨S1600000, .i32⟩ : BufTy).Contents (Elt F)),
    binary main_v1 main_v46 main_v47 (addi : (⟨S1600000, .i32⟩ : BufTy).Contents (Elt F) → (⟨S1600000, .i32⟩ : BufTy).Contents (Elt F) → (⟨S1600000, .i32⟩ : BufTy).Contents (Elt F)),
    ternary main_v45 main_v47 main_v1 main_v48 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v48 main_v49 (broadcastInDim S1600000x1 ![0] bcast_S1600000_S1600000x1_0 : (⟨S1600000, .i32⟩ : BufTy).Contents (Elt F) → (⟨S1600000x1, .i32⟩ : BufTy).Contents (Elt F)),
    binary main_v43 main_v49 main_v50 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_7 (constant S_ .f32 0x00000000#32),
    unary main_cst_7 main_v51 (broadcastInDim S100000x64 ![] bcast_S_S100000x64 : (⟨S_, .f32⟩ : BufTy).Contents (Elt F) → (⟨S100000x64, .f32⟩ : BufTy).Contents (Elt F)),
    unary main_v3 main_v52 (broadcastInDim S1600000x1 ![0] bcast_S1600000_S1600000x1_0 : (⟨S1600000, .i32⟩ : BufTy).Contents (Elt F) → (⟨S1600000x1, .i32⟩ : BufTy).Contents (Elt F)),
    ternary main_v51 main_v52 main_v50 main_v53 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_8 (constant S_ .f32 0x3F800000#32),
    unary main_cst_8 main_v54 (broadcastInDim S1600000x1 ![] bcast_S_S1600000x1 : (⟨S_, .f32⟩ : BufTy).Contents (Elt F) → (⟨S1600000x1, .f32⟩ : BufTy).Contents (Elt F)),
    nullary main_cst_9 (constant S_ .f32 0x00000000#32),
    unary main_cst_9 main_v55 (broadcastInDim S100000x1 ![] bcast_S_S100000x1 : (⟨S_, .f32⟩ : BufTy).Contents (Elt F) → (⟨S100000x1, .f32⟩ : BufTy).Contents (Elt F)),
    unary main_v3 main_v56 (broadcastInDim S1600000x1 ![0] bcast_S1600000_S1600000x1_0 : (⟨S1600000, .i32⟩ : BufTy).Contents (Elt F) → (⟨S1600000x1, .i32⟩ : BufTy).Contents (Elt F)),
    ternary main_v55 main_v56 main_v54 main_v57 ((fun x i u => Host.scatterAdd scatter_S100000x1_S1600000x1_S1600000x1_1_0_0_1 x i u) : (⟨S100000x1, .f32⟩ : BufTy).Contents (Elt F) → (⟨S1600000x1, .i32⟩ : BufTy).Contents (Elt F) → (⟨S1600000x1, .f32⟩ : BufTy).Contents (Elt F) → (⟨S100000x1, .f32⟩ : BufTy).Contents (Elt F)),
    nullary main_cst_10 (constant S_ .f32 0x3F800000#32),
    unary main_cst_10 main_v58 (broadcastInDim S100000x1 ![] bcast_S_S100000x1 : (⟨S_, .f32⟩ : BufTy).Contents (Elt F) → (⟨S100000x1, .f32⟩ : BufTy).Contents (Elt F)),
    binary main_v57 main_v58 main_v59 (maximumf : (⟨S100000x1, .f32⟩ : BufTy).Contents (Elt F) → (⟨S100000x1, .f32⟩ : BufTy).Contents (Elt F) → (⟨S100000x1, .f32⟩ : BufTy).Contents (Elt F)),
    unary main_v59 main_v60 (broadcastInDim S100000x64 ![0, 1] bcast_S100000x1_S100000x64_0_1 : (⟨S100000x1, .f32⟩ : BufTy).Contents (Elt F) → (⟨S100000x64, .f32⟩ : BufTy).Contents (Elt F)),
    binary main_v53 main_v60 main_v61 (Host.divf : (⟨S100000x64, .f32⟩ : BufTy).Contents (Elt F) → (⟨S100000x64, .f32⟩ : BufTy).Contents (Elt F) → (⟨S100000x64, .f32⟩ : BufTy).Contents (Elt F)),
    unary main_arg9 main_v62 ((transpose S64x32 [1, 0] · transposes_S32x64_S64x32_1_0) : (⟨S32x64, .f32⟩ : BufTy).Contents (Elt F) → (⟨S64x32, .f32⟩ : BufTy).Contents (Elt F)),
    binary main_v61 main_v62 main_v63 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    unary main_arg10 main_v64 (broadcastInDim S1x32 ![1] bcast_S32_S1x32_1 : (⟨S32, .f32⟩ : BufTy).Contents (Elt F) → (⟨S1x32, .f32⟩ : BufTy).Contents (Elt F)),
    unary main_v64 main_v65 (broadcastInDim S100000x32 ![0, 1] bcast_S1x32_S100000x32_0_1 : (⟨S1x32, .f32⟩ : BufTy).Contents (Elt F) → (⟨S100000x32, .f32⟩ : BufTy).Contents (Elt F)),
    binary main_v63 main_v65 main_v66 (addf : (⟨S100000x32, .f32⟩ : BufTy).Contents (Elt F) → (⟨S100000x32, .f32⟩ : BufTy).Contents (Elt F) → (⟨S100000x32, .f32⟩ : BufTy).Contents (Elt F)),
    unary main_arg11 main_v67 ((transpose S64x32 [1, 0] · transposes_S32x64_S64x32_1_0) : (⟨S32x64, .f32⟩ : BufTy).Contents (Elt F) → (⟨S64x32, .f32⟩ : BufTy).Contents (Elt F)),
    binary main_v43 main_v67 main_v68 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    binary main_v66 main_v68 main_v69 (addf : (⟨S100000x32, .f32⟩ : BufTy).Contents (Elt F) → (⟨S100000x32, .f32⟩ : BufTy).Contents (Elt F) → (⟨S100000x32, .f32⟩ : BufTy).Contents (Elt F)) ]

/-- The third stretch: the row log-softmax of the logits. -/
abbrev opsC : List (HloOp τ sig (Elt F)) :=
  [ TRef.nullary (TRef.of (T := ⟨S_, .f32⟩) main_call1_cst) (constant S_ .f32 0xFF800000#32),
    TRef.binary (TRef.of (T := ⟨S100000x32, .f32⟩) main_v69) (TRef.of (T := ⟨S_, .f32⟩) main_call1_cst) (TRef.of (T := ⟨S100000, .f32⟩) main_call1_v0) (fun x v => Host.reduce FloatOps.maximumf x v reducesTo_S100000x32_S100000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x32, .f32⟩) main_call1_v4) (broadcastInDim S100000x32 ![0, 1] bcast_S100000x1_S100000x32_0_1),
    TRef.binary (TRef.of (T := ⟨S100000x32, .f32⟩) main_v69) (TRef.of (T := ⟨S100000x32, .f32⟩) main_call1_v4) (TRef.of (T := ⟨S100000x32, .f32⟩) main_call1_v5) subf,
    TRef.unary (TRef.of (T := ⟨S100000x32, .f32⟩) main_call1_v5) (TRef.of (T := ⟨S100000x32, .f32⟩) main_call1_v6) Host.exp,
    TRef.nullary (TRef.of (T := ⟨S_, .f32⟩) main_call1_cst_1) (constant S_ .f32 0x00000000#32),
    TRef.binary (TRef.of (T := ⟨S100000x32, .f32⟩) main_call1_v6) (TRef.of (T := ⟨S_, .f32⟩) main_call1_cst_1) (TRef.of (T := ⟨S100000, .f32⟩) main_call1_v7) (fun x v => Host.reduceAdd x v reducesTo_S100000x32_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x32, .f32⟩) main_call1_v10) (broadcastInDim S100000x32 ![0, 1] bcast_S100000x1_S100000x32_0_1),
    TRef.binary (TRef.of (T := ⟨S100000x32, .f32⟩) main_call1_v5) (TRef.of (T := ⟨S100000x32, .f32⟩) main_call1_v10) (TRef.of (T := ⟨S100000x32, .f32⟩) main_v70) subf ]

set_option maxRecDepth 8192 in
theorem ops_eq : (ops : List (HloOp τ sig (Elt F))) = opsA ++ (opsB ++ opsC) := rfl

/-- Contents moved to a typed reference's buffer type and back are the contents. -/
theorem ofBuf_toBuf {T : BufTy} (x : TRef sig T) (v : T.Contents (Elt F)) : x.ofBuf (x.toBuf v) = v := by
  obtain ⟨r, h, h1, h2⟩ := x
  subst h
  rfl

section Stretches

variable (V : Valuation τ sig (Elt F))

set_option maxRecDepth 8192 in
set_option maxHeartbeats 4000000 in
/-- After the first stretch the hidden array holds its stage of the arguments. -/
theorem hidden_read : after opsA V (Proc.devRef .tc main_v43)
    = val_main_v43 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  after_results_simp
  rfl

set_option maxRecDepth 8192 in
set_option maxHeartbeats 4000000 in
/-- … and the two rows of edge endpoints theirs. -/
theorem src_read : after opsA V (Proc.devRef .tc main_v1) = val_main_v1 (F := F) (V (Proc.devRef .tc main_arg1)) := by
  after_results_simp
  rfl
set_option maxRecDepth 8192 in
set_option maxHeartbeats 4000000 in
theorem dst_read : after opsA V (Proc.devRef .tc main_v3) = val_main_v3 (F := F) (V (Proc.devRef .tc main_arg1)) := by
  after_results_simp
  rfl

set_option maxRecDepth 8192 in
set_option maxHeartbeats 4000000 in
/-- The first stretch writes no argument. -/
theorem argsA : after opsA V (Proc.devRef .tc main_arg1) = V (Proc.devRef .tc main_arg1)
    ∧ after opsA V (Proc.devRef .tc main_arg9) = V (Proc.devRef .tc main_arg9)
    ∧ after opsA V (Proc.devRef .tc main_arg10) = V (Proc.devRef .tc main_arg10)
    ∧ after opsA V (Proc.devRef .tc main_arg11) = V (Proc.devRef .tc main_arg11) := by
  refine ⟨?_, ?_, ?_, ?_⟩ <;> after_results_simp

set_option maxRecDepth 8192 in
set_option maxHeartbeats 4000000 in
/-- The second stretch, from contents `W` that hold the hidden array, the edge endpoints and the last three arguments: the logits
    hold their stage of the arguments. -/
theorem logits_read (W : Valuation τ sig (Elt F))
    (x0 : (Proc.devRef (τ := τ) .tc main_arg0).ty.Contents (Elt F)) (x1 : (Proc.devRef (τ := τ) .tc main_arg1).ty.Contents (Elt F)) (x2 : (Proc.devRef (τ := τ) .tc main_arg2).ty.Contents (Elt F)) (x3 : (Proc.devRef (τ := τ) .tc main_arg3).ty.Contents (Elt F)) (x4 : (Proc.devRef (τ := τ) .tc main_arg4).ty.Contents (Elt F)) (x5 : (Proc.devRef (τ := τ) .tc main_arg5).ty.Contents (Elt F)) (x6 : (Proc.devRef (τ := τ) .tc main_arg6).ty.Contents (Elt F)) (x7 : (Proc.devRef (τ := τ) .tc main_arg7).ty.Contents (Elt F)) (x8 : (Proc.devRef (τ := τ) .tc main_arg8).ty.Contents (Elt F)) (x9 : (Proc.devRef (τ := τ) .tc main_arg9).ty.Contents (Elt F)) (x10 : (Proc.devRef (τ := τ) .tc main_arg10).ty.Contents (Elt F)) (x11 : (Proc.devRef (τ := τ) .tc main_arg11).ty.Contents (Elt F))
    (h43 : W (Proc.devRef .tc main_v43) = val_main_v43 (F := F) x0 x1 x2 x3 x4 x5 x6 x7 x8)
    (h1 : W (Proc.devRef .tc main_v1) = val_main_v1 (F := F) x1) (h3 : W (Proc.devRef .tc main_v3) = val_main_v3 (F := F) x1)
    (h9 : W (Proc.devRef .tc main_arg9) = x9) (h10 : W (Proc.devRef .tc main_arg10) = x10) (h11 : W (Proc.devRef .tc main_arg11) = x11) :
    after opsB W (Proc.devRef .tc main_v69) = val_main_v69 (F := F) x0 x1 x2 x3 x4 x5 x6 x7 x8 x9 x10 x11 := by
  after_results_simp
  simp only [h43, h1, h3, h9, h10, h11]
  rfl

set_option maxRecDepth 16384 in
set_option maxHeartbeats 4000000 in
/-- The third stretch, from contents `W` that hold the logits: the result array holds its stage of the arguments. -/
theorem lsm_read (W : Valuation τ sig (Elt F))
    (x0 : (Proc.devRef (τ := τ) .tc main_arg0).ty.Contents (Elt F)) (x1 : (Proc.devRef (τ := τ) .tc main_arg1).ty.Contents (Elt F)) (x2 : (Proc.devRef (τ := τ) .tc main_arg2).ty.Contents (Elt F)) (x3 : (Proc.devRef (τ := τ) .tc main_arg3).ty.Contents (Elt F)) (x4 : (Proc.devRef (τ := τ) .tc main_arg4).ty.Contents (Elt F)) (x5 : (Proc.devRef (τ := τ) .tc main_arg5).ty.Contents (Elt F)) (x6 : (Proc.devRef (τ := τ) .tc main_arg6).ty.Contents (Elt F)) (x7 : (Proc.devRef (τ := τ) .tc main_arg7).ty.Contents (Elt F)) (x8 : (Proc.devRef (τ := τ) .tc main_arg8).ty.Contents (Elt F)) (x9 : (Proc.devRef (τ := τ) .tc main_arg9).ty.Contents (Elt F)) (x10 : (Proc.devRef (τ := τ) .tc main_arg10).ty.Contents (Elt F)) (x11 : (Proc.devRef (τ := τ) .tc main_arg11).ty.Contents (Elt F))
    (h69 : W (Proc.devRef .tc main_v69) = val_main_v69 (F := F) x0 x1 x2 x3 x4 x5 x6 x7 x8 x9 x10 x11) :
    after opsC W (Proc.devRef .tc main_v70) = val_main_v70 (F := F) x0 x1 x2 x3 x4 x5 x6 x7 x8 x9 x10 x11 := by
  after_results_simp
  simp only [h69, ofBuf_toBuf]
  rfl

end Stretches

/-- The whole list's fold at the result array: the result's stage of the arguments' launch contents. -/
theorem value_read (m : (ℓ : Loc nD τ sig) → Buf (Elt F) ℓ) (c : Dev nD) :
    after (ops (F := F)) (launchContents m c) (Proc.devRef .tc main_v70)
      = val_main_v70 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  rw [ops_eq, after_append, after_append]
  obtain ⟨e1, e9, e10, e11⟩ := argsA (F := F) (launchContents m c)
  exact lsm_read _ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
    (logits_read _ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      (hidden_read _) ((src_read _).trans rfl) ((dst_read _).trans rfl) e9 e10 e11)

set_option maxRecDepth 8192 in
set_option maxHeartbeats 40000000 in
/-- On every device, from any memory with zero counters: every weakly fair execution of the reference's @main terminates with the result array
    at its stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v70) = val_main_v70 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v70).trans (value_read m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl)⟩)
    (run_seq scopedRefs_eq scopedSems_eq defs main (fun _ => ops) main_eq (fun _ => ops_sub) m ρ)

end Cert.ReferenceIdeal.RunRead

end
-- ==== Proof.RefLayer0.lean ====
/- The reference's first layer, read as values: its hidden array (after relu) is `Sage.layer0` of its aggregated features and its arguments,
   when every variance entry is nonnegative. -/
import proofs.«122199_j26603027431847_1_alg».proof.Proof.RefRead
import proofs.«122199_j26603027431847_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.ShloMosaic.ValueIdx

namespace Cert.ReferenceIdeal.Layer0

open Cert.ReferenceIdeal Cert.ReferenceIdeal.ReadP

/-! ## The composed index maps at an index given by coordinates -/

/-- The left operand of either product is read at row `r`, column `k`. -/
theorem lidx23_ix2 (r : Fin 100000) (o k : Fin 64) : lidx_main_v23 (ix2 r o) k = ix2 r k :=
  funext fun a => Fin.ext (by match a with | ⟨0, _⟩ => rfl | ⟨1, _⟩ => rfl)
theorem lidx28_ix2 (r : Fin 100000) (o k : Fin 64) : lidx_main_v28 (ix2 r o) k = ix2 r k :=
  funext fun a => Fin.ext (by match a with | ⟨0, _⟩ => rfl | ⟨1, _⟩ => rfl)
/-- The transposed weight at `(k, o)` is the weight at `(o, k)`. -/
theorem ridx23_ix2 (r : Fin 100000) (o k : Fin 64) : idx_main_v22 (ridx_main_v23 (ix2 r o) k) = ix2 o k :=
  funext fun a => Fin.ext (by match a with | ⟨0, _⟩ => rfl | ⟨1, _⟩ => rfl)
theorem ridx28_ix2 (r : Fin 100000) (o k : Fin 64) : idx_main_v27 (ridx_main_v28 (ix2 r o) k) = ix2 o k :=
  funext fun a => Fin.ext (by match a with | ⟨0, _⟩ => rfl | ⟨1, _⟩ => rfl)
/-- A per-feature vector broadcast along the rows is read at feature `o`. -/
theorem bidx25_ix2 (r : Fin 100000) (o : Fin 64) : idx_main_v24 (idx_main_v25 (ix2 r o)) = ix1 o :=
  funext fun a => Fin.ext (by match a with | ⟨0, _⟩ => rfl)
theorem bidx31_ix2 (r : Fin 100000) (o : Fin 64) : idx_main_v30 (idx_main_v31 (ix2 r o)) = ix1 o :=
  funext fun a => Fin.ext (by match a with | ⟨0, _⟩ => rfl)
theorem bidx38_ix2 (r : Fin 100000) (o : Fin 64) : idx_main_v37 (idx_main_v38 (ix2 r o)) = ix1 o :=
  funext fun a => Fin.ext (by match a with | ⟨0, _⟩ => rfl)
theorem bidx41_ix2 (r : Fin 100000) (o : Fin 64) : idx_main_v40 (idx_main_v41 (ix2 r o)) = ix1 o :=
  funext fun a => Fin.ext (by match a with | ⟨0, _⟩ => rfl)

/-! ## The stages of layer 0 at node `r`, feature `o` -/

/-- The product with the transposed left weight: the node's row of aggregated features against row `o` of the weight. -/
theorem dotL_at (x0 : (⟨S100000x64, .f32⟩ : BufTy).Contents (Elt Ideal)) (x1 : (⟨S2x1600000, .i32⟩ : BufTy).Contents (Elt Ideal))
    (x2 : (⟨S64x64, .f32⟩ : BufTy).Contents (Elt Ideal)) (r : Fin 100000) (o : Fin 64) :
    val_main_v23 (F := Ideal) x0 x1 x2 (ix2 r o) = ∑ k : Fin 64, val_main_v21 (F := Ideal) x0 x1 (ix2 r k) * x2 (ix2 o k) := by
  rw [val_main_v23_apply]
  refine Finset.sum_congr rfl fun k _ => ?_
  rw [val_main_v22_apply, lidx23_ix2, ridx23_ix2]

/-- The product with the transposed right weight: the node's own row against row `o` of the weight. -/
theorem dotR_at (x0 : (⟨S100000x64, .f32⟩ : BufTy).Contents (Elt Ideal)) (x4 : (⟨S64x64, .f32⟩ : BufTy).Contents (Elt Ideal))
    (r : Fin 100000) (o : Fin 64) :
    val_main_v28 (F := Ideal) x0 x4 (ix2 r o) = ∑ k : Fin 64, x0 (ix2 r k) * x4 (ix2 o k) := by
  rw [val_main_v28_apply]
  refine Finset.sum_congr rfl fun k _ => ?_
  rw [val_main_v27_apply, lidx28_ix2, ridx28_ix2]

/-- The bias, broadcast along the rows. -/
theorem bias_at (x3 : (⟨S64, .f32⟩ : BufTy).Contents (Elt Ideal)) (r : Fin 100000) (o : Fin 64) :
    val_main_v25 (F := Ideal) x3 (ix2 r o) = x3 (ix1 o) := by
  rw [val_main_v25_apply, val_main_v24_apply, bidx25_ix2]

/-- The running mean, broadcast along the rows. -/
theorem mean_at (x7 : (⟨S64, .f32⟩ : BufTy).Contents (Elt Ideal)) (r : Fin 100000) (o : Fin 64) :
    val_main_v31 (F := Ideal) x7 (ix2 r o) = x7 (ix1 o) := by
  rw [val_main_v31_apply, val_main_v30_apply, bidx31_ix2]

/-- The shift, broadcast along the rows. -/
theorem beta_at (x6 : (⟨S64, .f32⟩ : BufTy).Contents (Elt Ideal)) (r : Fin 100000) (o : Fin 64) :
    val_main_v41 (F := Ideal) x6 (ix2 r o) = x6 (ix1 o) := by
  rw [val_main_v41_apply, val_main_v40_apply, bidx41_ix2]

/-- The scale `gamma / sqrt(var + ε)`, broadcast along the rows. -/
theorem scale_at (x5 x8 : (⟨S64, .f32⟩ : BufTy).Contents (Elt Ideal)) (r : Fin 100000) (o : Fin 64) :
    val_main_v38 (F := Ideal) x5 x8 (ix2 r o) = Ideal.div (x5 (ix1 o)) (Ideal.sqrt (x8 (ix1 o) + Cert.Sage.eps)) := by
  rw [val_main_v38_apply, val_main_v37_apply, bidx38_ix2, val_main_v36_apply, val_main_v35_apply, val_main_v34_apply,
    val_main_v33_apply, val_main_cst_4_apply]
  rfl

/-- The zero array of the relu. -/
theorem zero_at (r : Fin 100000) (o : Fin 64) : val_main_call0_v0 (F := Ideal) (ix2 r o) = Cert.Sage.zero32 := by
  rw [val_main_call0_v0_apply, val_main_call0_cst_apply]
  rfl

/-- THE REFERENCE'S HIDDEN ARRAY is layer 0 of its aggregated node features, the node features, the two weight matrices and the five per-feature
    vectors. The batch norm's scale is `gamma / sqrt(var + ε)` here and `gamma · rsqrt(var + ε)` in `Sage.layer0`: equal for `0 ≤ var`. -/
theorem hidden_eq (x0 : (⟨S100000x64, .f32⟩ : BufTy).Contents (Elt Ideal)) (x1 : (⟨S2x1600000, .i32⟩ : BufTy).Contents (Elt Ideal))
    (x2 : (⟨S64x64, .f32⟩ : BufTy).Contents (Elt Ideal)) (x3 : (⟨S64, .f32⟩ : BufTy).Contents (Elt Ideal)) (x4 : (⟨S64x64, .f32⟩ : BufTy).Contents (Elt Ideal))
    (x5 x6 x7 x8 : (⟨S64, .f32⟩ : BufTy).Contents (Elt Ideal))
    (hvar : ∀ o : Fin 64, (0 : EReal) ≤ x8 (ix1 o)) :
    val_main_v43 (F := Ideal) x0 x1 x2 x3 x4 x5 x6 x7 x8
      = Cert.Sage.layer0 (val_main_v21 (F := Ideal) x0 x1) x0 x2 x4 (fun o => x3 (ix1 o)) (fun o => x5 (ix1 o)) (fun o => x6 (ix1 o))
          (fun o => x7 (ix1 o)) (fun o => x8 (ix1 o)) := by
  funext i
  obtain ⟨r, o, rfl⟩ : ∃ (r : Fin 100000) (o : Fin 64), i = ix2 r o := ⟨i 0, i 1, eq_ix2 i⟩
  rw [Cert.Sage.layer0_ix2, val_main_v43_apply, val_main_v42_apply, val_main_v39_apply, val_main_v32_apply, val_main_v29_apply,
    val_main_v26_apply, dotL_at, dotR_at, bias_at, mean_at, beta_at, scale_at, zero_at]
  unfold Cert.Sage.layer0At Cert.Sage.bnRelu Cert.Sage.lin0Row
  rw [Cert.Sage.scale_eq _ _ (hvar o)]
  rfl

end Cert.ReferenceIdeal.Layer0

end
-- ==== Proof.RefLayer1.lean ====
/- The reference's second layer and its row log-softmax, read as values: its result array is `Sage.layer1` of its aggregated hidden
   features, its hidden features and its last three arguments. -/
import proofs.«122199_j26603027431847_1_alg».proof.Proof.RefRead
import proofs.«122199_j26603027431847_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.ShloMosaic.ValueIdx

namespace Cert.ReferenceIdeal.Layer1

open Cert.ReferenceIdeal Cert.ReferenceIdeal.ReadP

/-! ## Index equations: the reference's composed index maps at (r, o), coordinate by coordinate -/

theorem lidx63_eq (r : Fin 100000) (o : Fin 32) (k : Fin 64) : lidx_main_v63 (ix2 r o) k = ix2 r k :=
  funext fun a => Fin.ext (by match a with | ⟨0, _⟩ => rfl | ⟨1, _⟩ => rfl)

theorem ridx63_eq (r : Fin 100000) (o : Fin 32) (k : Fin 64) : idx_main_v62 (ridx_main_v63 (ix2 r o) k) = ix2 o k :=
  funext fun a => Fin.ext (by match a with | ⟨0, _⟩ => rfl | ⟨1, _⟩ => rfl)

theorem lidx68_eq (r : Fin 100000) (o : Fin 32) (k : Fin 64) : lidx_main_v68 (ix2 r o) k = ix2 r k :=
  funext fun a => Fin.ext (by match a with | ⟨0, _⟩ => rfl | ⟨1, _⟩ => rfl)

theorem ridx68_eq (r : Fin 100000) (o : Fin 32) (k : Fin 64) : idx_main_v67 (ridx_main_v68 (ix2 r o) k) = ix2 o k :=
  funext fun a => Fin.ext (by match a with | ⟨0, _⟩ => rfl | ⟨1, _⟩ => rfl)

theorem idx65_eq (r : Fin 100000) (o : Fin 32) : idx_main_v64 (idx_main_v65 (ix2 r o)) = ix1 o :=
  funext fun a => Fin.ext (by match a with | ⟨0, _⟩ => rfl)

/-- The reduced index r with class k put back is (r, k). -/
theorem lift_eq (h : S100000x32.Reduces [1] S100000) (r : Fin 100000) (k : Fin (S100000x32.size 1)) :
    h.lift (ix1 r) k = ix2 r (⟨k.val, k.isLt⟩ : Fin 32) :=
  funext fun a => Fin.ext (by match a with | ⟨0, _⟩ => rfl | ⟨1, _⟩ => rfl)

/-- A row's maximum from −∞ as the reference takes it. -/
theorem reduce_max_row (y : FVec Ideal S100000x32 .f32) (r : Fin 100000) :
    Host.reduce FloatOps.maximumf y (val_main_call1_cst (F := Ideal)) Gen.reducesTo_S100000x32_S100000_d1 Gen.h_S_ (ix1 r)
      = Cert.Sage.rowMax (fun o' => y (ix2 r o')) := by
  have h : S100000x32.Reduces [1] S100000 := by decide
  rw [Host.reduce_eq_fold_single FloatOps.maximumf y _ Gen.reducesTo_S100000x32_S100000_d1 h Gen.h_S_]
  have hf : (y ∘ h.lift (ix1 r)) = fun k : Fin 32 => y (ix2 r k) := funext fun k => congrArg y (lift_eq h r k)
  exact congrArg (fun f => Finset.fold max Cert.Sage.negInf32 f (Finset.univ : Finset (Fin 32))) hf

section
variable (x0 : (⟨S100000x64, .f32⟩ : BufTy).Contents (Elt Ideal)) (x1 : (⟨S2x1600000, .i32⟩ : BufTy).Contents (Elt Ideal))
    (x2 : (⟨S64x64, .f32⟩ : BufTy).Contents (Elt Ideal)) (x3 : (⟨S64, .f32⟩ : BufTy).Contents (Elt Ideal)) (x4 : (⟨S64x64, .f32⟩ : BufTy).Contents (Elt Ideal))
    (x5 x6 x7 x8 : (⟨S64, .f32⟩ : BufTy).Contents (Elt Ideal))
    (x9 : (⟨S32x64, .f32⟩ : BufTy).Contents (Elt Ideal)) (x10 : (⟨S32, .f32⟩ : BufTy).Contents (Elt Ideal)) (x11 : (⟨S32x64, .f32⟩ : BufTy).Contents (Elt Ideal))

/-- The logits at (r, o): the linear combination of row r of the aggregated features and of the hidden features. -/
theorem out_apply (r : Fin 100000) (o : Fin 32) :
    val_main_v69 (F := Ideal) x0 x1 x2 x3 x4 x5 x6 x7 x8 x9 x10 x11 (ix2 r o)
      = Cert.Sage.lin1Row (fun k => val_main_v61 (F := Ideal) x0 x1 x2 x3 x4 x5 x6 x7 x8 (ix2 r k))
          (fun k => val_main_v43 (F := Ideal) x0 x1 x2 x3 x4 x5 x6 x7 x8 (ix2 r k)) x9 x11 (fun o' => x10 (ix1 o')) o := by
  rw [val_main_v69_apply, val_main_v66_apply, val_main_v63_apply, val_main_v65_apply, val_main_v64_apply, val_main_v68_apply]
  generalize val_main_v61 (F := Ideal) x0 x1 x2 x3 x4 x5 x6 x7 x8 = A
  generalize val_main_v43 (F := Ideal) x0 x1 x2 x3 x4 x5 x6 x7 x8 = H
  have e1 : ∀ k : Fin 64, A (lidx_main_v63 (ix2 r o) k) * val_main_v62 (F := Ideal) x9 (ridx_main_v63 (ix2 r o) k)
      = A (ix2 r k) * x9 (ix2 o k) := fun k => by rw [lidx63_eq, val_main_v62_apply, ridx63_eq]
  have e2 : ∀ k : Fin 64, H (lidx_main_v68 (ix2 r o) k) * val_main_v67 (F := Ideal) x11 (ridx_main_v68 (ix2 r o) k)
      = H (ix2 r k) * x11 (ix2 o k) := fun k => by rw [lidx68_eq, val_main_v67_apply, ridx68_eq]
  rw [Finset.sum_congr rfl fun k _ => e1 k, Finset.sum_congr rfl fun k _ => e2 k, idx65_eq]
  simp only [Ideal.addf_def]
  unfold Cert.Sage.lin1Row
  rfl

/-- The reference's first reduction at row r is that row's running maximum of the logits. -/
theorem rowmax_apply (r : Fin 100000) :
    val_main_call1_v0 (F := Ideal) x0 x1 x2 x3 x4 x5 x6 x7 x8 x9 x10 x11 (ix1 r)
      = Cert.Sage.rowMax (fun o' => val_main_v69 (F := Ideal) x0 x1 x2 x3 x4 x5 x6 x7 x8 x9 x10 x11 (ix2 r o')) :=
  reduce_max_row _ r

theorem idx34_eq (r : Fin 100000) (o : Fin 32) : idx_main_call1_v3 (idx_main_call1_v4 (ix2 r o)) = ix1 r :=
  funext fun a => Fin.ext (by match a with | ⟨0, _⟩ => rfl)

theorem idx810_eq (r : Fin 100000) (o : Fin 32) : idx_main_call1_v8 (idx_main_call1_v10 (ix2 r o)) = ix1 r :=
  funext fun a => Fin.ext (by match a with | ⟨0, _⟩ => rfl)

theorem idx7_eq (r : Fin 100000) (k : Fin 32) : idx_main_call1_v7 (ix1 r) k = ix2 r k :=
  funext fun a => Fin.ext (by match a with | ⟨0, _⟩ => rfl | ⟨1, _⟩ => rfl)

/-- The maximum the reference subtracts: the row's maximum once more against −∞, which changes nothing. -/
theorem max_apply (r : Fin 100000) :
    val_main_call1_v2 (F := Ideal) x0 x1 x2 x3 x4 x5 x6 x7 x8 x9 x10 x11 (ix1 r) = Cert.Sage.rowMax (fun o' => val_main_v69 (F := Ideal) x0 x1 x2 x3 x4 x5 x6 x7 x8 x9 x10 x11 (ix2 r o')) := by
  rw [val_main_call1_v2_apply, val_main_call1_v1_apply, val_main_call1_cst_0_apply, rowmax_apply]
  exact Cert.Sage.max_negInf_rowMax _

/-- The shifted logit. -/
theorem shifted_apply (r : Fin 100000) (o : Fin 32) :
    val_main_call1_v5 (F := Ideal) x0 x1 x2 x3 x4 x5 x6 x7 x8 x9 x10 x11 (ix2 r o)
      = val_main_v69 (F := Ideal) x0 x1 x2 x3 x4 x5 x6 x7 x8 x9 x10 x11 (ix2 r o) - Cert.Sage.rowMax (fun o' => val_main_v69 (F := Ideal) x0 x1 x2 x3 x4 x5 x6 x7 x8 x9 x10 x11 (ix2 r o')) := by
  rw [val_main_call1_v5_apply, val_main_call1_v4_apply, val_main_call1_v3_apply, idx34_eq, max_apply]
  rfl

/-- The row's sum of exponentials of the shifted logits. -/
theorem sumexp_apply (r : Fin 100000) :
    val_main_call1_v7 (F := Ideal) x0 x1 x2 x3 x4 x5 x6 x7 x8 x9 x10 x11 (ix1 r)
      = ∑ o' : Fin 32, Ideal.exp (val_main_v69 (F := Ideal) x0 x1 x2 x3 x4 x5 x6 x7 x8 x9 x10 x11 (ix2 r o') - Cert.Sage.rowMax (fun o'' => val_main_v69 (F := Ideal) x0 x1 x2 x3 x4 x5 x6 x7 x8 x9 x10 x11 (ix2 r o''))) := by
  rw [val_main_call1_v7_apply, val_main_call1_cst_1_apply]
  show Ideal.ofBits .f32 0x00000000#32 + _ = _
  rw [Ideal.ofBits_zero_f32, zero_add]
  refine Finset.sum_congr rfl fun k _ => ?_
  rw [idx7_eq, val_main_call1_v6_apply, shifted_apply]
  exact Ideal.hostUnary_exp_def _

/-- The logarithm of that sum, spread over the row. -/
theorem logsum_apply (r : Fin 100000) (o : Fin 32) :
    val_main_call1_v10 (F := Ideal) x0 x1 x2 x3 x4 x5 x6 x7 x8 x9 x10 x11 (ix2 r o)
      = Ideal.log (∑ o' : Fin 32, Ideal.exp (val_main_v69 (F := Ideal) x0 x1 x2 x3 x4 x5 x6 x7 x8 x9 x10 x11 (ix2 r o') - Cert.Sage.rowMax (fun o'' => val_main_v69 (F := Ideal) x0 x1 x2 x3 x4 x5 x6 x7 x8 x9 x10 x11 (ix2 r o'')))) := by
  rw [val_main_call1_v10_apply, val_main_call1_v9_apply, val_main_call1_v8_apply, idx810_eq, sumexp_apply]
  exact Ideal.hostUnary_log_def _

end

/-- THE REFERENCE'S RESULT is layer 1 of its aggregated hidden features, its hidden features, the two class weight matrices and the class bias. -/
theorem result_eq (x0 : (⟨S100000x64, .f32⟩ : BufTy).Contents (Elt Ideal)) (x1 : (⟨S2x1600000, .i32⟩ : BufTy).Contents (Elt Ideal))
    (x2 : (⟨S64x64, .f32⟩ : BufTy).Contents (Elt Ideal)) (x3 : (⟨S64, .f32⟩ : BufTy).Contents (Elt Ideal)) (x4 : (⟨S64x64, .f32⟩ : BufTy).Contents (Elt Ideal))
    (x5 x6 x7 x8 : (⟨S64, .f32⟩ : BufTy).Contents (Elt Ideal))
    (x9 : (⟨S32x64, .f32⟩ : BufTy).Contents (Elt Ideal)) (x10 : (⟨S32, .f32⟩ : BufTy).Contents (Elt Ideal)) (x11 : (⟨S32x64, .f32⟩ : BufTy).Contents (Elt Ideal)) :
    val_main_v70 (F := Ideal) x0 x1 x2 x3 x4 x5 x6 x7 x8 x9 x10 x11
      = Cert.Sage.layer1 (val_main_v61 (F := Ideal) x0 x1 x2 x3 x4 x5 x6 x7 x8) (val_main_v43 (F := Ideal) x0 x1 x2 x3 x4 x5 x6 x7 x8) x9 x11
          (fun o => x10 (ix1 o)) := by
  funext i
  obtain ⟨r, o, rfl⟩ : ∃ (r : Fin 100000) (o : Fin 32), i = ix2 r o := ⟨i 0, i 1, eq_ix2 i⟩
  rw [Cert.Sage.layer1_ix2, val_main_v70_apply, shifted_apply, logsum_apply]
  unfold Cert.Sage.layer1At Cert.Sage.lsmRow
  simp only [out_apply, Ideal.subf_def]

end Cert.ReferenceIdeal.Layer1

end
-- ==== Proof.SegBridge.lean ====
/- The mean aggregation is ONE function in both programs: the reference's two aggregation stages are the kernel program's `segMean`
   of the node features and of the hidden features. Both sides are the same gather, scatter-add, count and divide over the same edge
   endpoints; nothing is computed, the two spellings are unfolded side by side. -/
import proofs.«122199_j26603027431847_1_alg».proof.Proof.RefRead
import proofs.«122199_j26603027431847_1_alg».proof.Proof.KernelHost

noncomputable section

open Idealize.ShloMosaic Idealize.ShloMosaic.TcCoe

namespace Cert.SegBridge

open Cert.ReferenceIdeal.ReadP

variable {F : FTy → Type} [FloatOps F]

set_option maxRecDepth 8192 in
/-- The reference's first aggregation is `segMean` of the node features. -/
theorem agg_eq (x0 : (⟨Cert.ReferenceIdeal.S100000x64, .f32⟩ : BufTy).Contents (Elt F)) (x1 : (⟨Cert.ReferenceIdeal.S2x1600000, .i32⟩ : BufTy).Contents (Elt F)) :
    val_main_v21 (F := F) x0 x1 = Cert.KernelIdeal.HostRead.segMean (F := F) x0 x1 := rfl

set_option maxRecDepth 8192 in
/-- The reference's second aggregation is `segMean` of its hidden features. -/
theorem agg2_eq (x0 : (⟨Cert.ReferenceIdeal.S100000x64, .f32⟩ : BufTy).Contents (Elt F)) (x1 : (⟨Cert.ReferenceIdeal.S2x1600000, .i32⟩ : BufTy).Contents (Elt F))
    (x2 : (⟨Cert.ReferenceIdeal.S64x64, .f32⟩ : BufTy).Contents (Elt F)) (x3 : (⟨Cert.ReferenceIdeal.S64, .f32⟩ : BufTy).Contents (Elt F)) (x4 : (⟨Cert.ReferenceIdeal.S64x64, .f32⟩ : BufTy).Contents (Elt F))
    (x5 x6 x7 x8 : (⟨Cert.ReferenceIdeal.S64, .f32⟩ : BufTy).Contents (Elt F)) :
    val_main_v61 (F := F) x0 x1 x2 x3 x4 x5 x6 x7 x8
      = Cert.KernelIdeal.HostRead.segMean (F := F) (val_main_v43 (F := F) x0 x1 x2 x3 x4 x5 x6 x7 x8) x1 := rfl

end Cert.SegBridge

end
-- ==== Proof.VarNonneg.lean ====
/- The added conjunct of the precondition, read back: every entry of the running variance is at least zero.
   The precondition is a chain of `and`s of `all`-reductions; its last link is `all(bn_var ≥ 0)`, a reduction by `and` of the
   entrywise comparison into one word, which is 1 only if every compared entry is. -/
import proofs.«122199_j26603027431847_1_alg».proof.Pre_finite_inputs
import Idealize.ShloMosaic.PureOps.Ideal
import Idealize.ShloMosaic.PureOps.Ideal.Laws
import Idealize.ShloMosaic.Lib.ReduceAll
import Idealize.ShloMosaic.Lib.Affine
import Idealize.ShloMosaic.Lib.ValueIdx

noncomputable section

open Idealize.ShloMosaic Idealize.ShloMosaic.ValueIdx

namespace Cert.Pre_finite_inputs.Decode

open Cert.Pre_finite_inputs

instance : Subsingleton S_.Idx := ⟨fun a b => funext fun d => d.elim0⟩

variable [Facts]

/-- If the precondition's last part is 1 then every variance entry is nonnegative. -/
theorem var_nonneg_of_part3 (a8 : FVec Ideal S64 .f32) (w : IVec S_ 1) (y z : FVec Ideal S32x64 .f32)
    (h : fn_part3 (F := Ideal) a8 w y z ix0 = 1#1) (o : Fin 64) : (0 : EReal) ≤ a8 (ix1 o) := by
  unfold fn_part3 at h
  dsimp only at h
  have h2 := (IntOp.andi_eq_one.1 h).2
  have h3 := Host.reduce_andi_all _ _ _ _ ix0 h2 (ix1 o)
  have h4 : Ideal.cmp .oge (a8 (ix1 o)) (Ideal.ofBits .f32 0x00000000#32) = 1#1 := h3
  rw [Ideal.ofBits_zero_f32] at h4
  by_contra hc
  simp [Ideal.cmp, hc] at h4

/-- Under the precondition every entry of the variance vector is nonnegative. -/
theorem var_nonneg (a0 : FVec Ideal S100000x64 .f32) (a1 : IVec S2x1600000 32) (a2 : FVec Ideal S64x64 .f32) (a3 : FVec Ideal S64 .f32)
    (a4 : FVec Ideal S64x64 .f32) (a5 a6 a7 a8 : FVec Ideal S64 .f32) (a9 : FVec Ideal S32x64 .f32) (a10 : FVec Ideal S32 .f32)
    (a11 : FVec Ideal S32x64 .f32) (h : fn (F := Ideal) a0 a1 a2 a3 a4 a5 a6 a7 a8 a9 a10 a11 = fun _ => 1#1) (o : Fin 64) :
    (0 : EReal) ≤ a8 (ix1 o) := by
  have h0 := congrFun h ix0
  unfold fn fn_part1 fn_part2 at h0
  dsimp only at h0
  exact var_nonneg_of_part3 a8 _ _ _ h0 o

end Cert.Pre_finite_inputs.Decode

end
-- ==== Proof.lean ====
/- The proof of `Cert.Claim`: a two-layer GraphSAGE network (mean aggregation, linear combination, batch norm with running
   statistics, relu; mean aggregation, linear combination, row log-softmax), the kernel computing each layer's dense part in a
   pallas_call over blocks of 10000 nodes and both aggregations on the host, against the plain jnp reference.

   At the ideal values both programs compute ONE function of their arguments: with S the mean aggregation over the edges,
     H = layer0 (S x) x …   and   result = layer1 (S H) H …        (Proof/Spec.lean).
   The kernel: each region's output array is its layer's function of the arrays the region finds, because the layer is row-wise and
   the ten blocks of rows tile the array (Proof/Layer0Blocks.lean, Proof/Layer1Blocks.lean); the host stretches before and between the
   regions are S and reshapes (Proof/KernelHost.lean); the frame run with the result named (Proof/KernelRun.lean) then ends at
   that function (Proof/KernelValue.lean). The reference: its run in two stretches (Proof/RefValue.lean), its two layers read at an
   index (Proof/RefLayer0.lean, Proof/RefLayer1.lean), its aggregations the same S (Proof/SegBridge.lean).
   The one law that is not a rearrangement is the batch norm's scale: the kernel multiplies by gamma · rsqrt(var + ε), the reference by
   gamma / sqrt(var + ε). On the extended reals these agree exactly where 0 ≤ var (for var + ε < 0 the reference's sqrt is undefined),
   which is the precondition's last conjunct (Proof/VarNonneg.lean reads it back). Nothing else uses the precondition.
   The three frames: the two kernel programs' are the generated frame certificates; the reference's is its run with the result dropped.
   The idealization rewrote nothing, so `preserves` is `True`. -/
import proofs.«122199_j26603027431847_1_alg».proof.Defs
import proofs.«122199_j26603027431847_1_alg».proof.Proof.Gen.Kernel
import proofs.«122199_j26603027431847_1_alg».proof.Proof.Gen.Kernel.Skeleton
import proofs.«122199_j26603027431847_1_alg».proof.Proof.Gen.Kernel.Launch
import proofs.«122199_j26603027431847_1_alg».proof.Proof.Gen.Kernel.Points
import proofs.«122199_j26603027431847_1_alg».proof.Proof.Gen.Kernel.Frame
import proofs.«122199_j26603027431847_1_alg».proof.Proof.Gen.KernelIdeal
import proofs.«122199_j26603027431847_1_alg».proof.Proof.Gen.KernelIdeal.Skeleton
import proofs.«122199_j26603027431847_1_alg».proof.Proof.Gen.KernelIdeal.Launch
import proofs.«122199_j26603027431847_1_alg».proof.Proof.Gen.KernelIdeal.Points
import proofs.«122199_j26603027431847_1_alg».proof.Proof.Gen.KernelIdeal.Frame
import proofs.«122199_j26603027431847_1_alg».proof.Proof.Gen.ReferenceIdeal
import proofs.«122199_j26603027431847_1_alg».proof.Proof.Gen.Pre_finite_inputs
import proofs.«122199_j26603027431847_1_alg».proof.Proof.KernelValue
import proofs.«122199_j26603027431847_1_alg».proof.Proof.RefValue
import proofs.«122199_j26603027431847_1_alg».proof.Proof.RefLayer0
import proofs.«122199_j26603027431847_1_alg».proof.Proof.RefLayer1
import proofs.«122199_j26603027431847_1_alg».proof.Proof.SegBridge
import proofs.«122199_j26603027431847_1_alg».proof.Proof.VarNonneg
import Idealize.ShloMosaic.Adequacy
import Idealize.ShloMosaic.Init

noncomputable section

namespace Cert.Proof

open Idealize.ShloMosaic Idealize.SL.Sem Idealize.ShloMosaic.ValueIdx

/-- The reference's result stage, at the kernel's arguments, is the kernel's result function: layer 1 over layer 0, both aggregations
    the same function, the two batch-norm scales equal where the variance is nonnegative. -/
theorem ref_eq_kernel (m : (ℓ : Loc Cert.KernelIdeal.nD Cert.KernelIdeal.τ Cert.KernelIdeal.sig) → Buf (Elt Ideal) ℓ) (c : Dev Cert.KernelIdeal.nD)
    (hvar : ∀ o : Fin 64, (0 : EReal) ≤ (m ((c.tc : Thread Cert.KernelIdeal.nD Cert.KernelIdeal.τ).loc Cert.KernelIdeal.main_arg8) : Cert.KernelIdeal.S64.Idx → EReal) (ix1 o)) :
    Cert.ReferenceIdeal.ReadP.val_main_v70 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))
      = Cert.KernelIdeal.ValueRead.result m c := by
  rw [Cert.ReferenceIdeal.Layer1.result_eq, Cert.SegBridge.agg2_eq, Cert.ReferenceIdeal.Layer0.hidden_eq _ _ _ _ _ _ _ _ _ hvar, Cert.SegBridge.agg_eq]
  rfl

/-- The two idealized programs, from memories that agree on the arguments, end with equal results. -/
theorem algebraic : Cert.algebraic_KernelIdeal_ReferenceIdeal := by
  intro m ρ m' ρ' hpre hagree
  refine ⟨fun c => Cert.KernelIdeal.ValueRead.result m c, Cert.KernelIdeal.ValueRead.run m ρ, ?_⟩
  refine (θ_run Cert.ReferenceIdeal.defs _ _).mono (fun _ h c => ⟨(h c).1.trans ?_, (h c).2⟩)
    (Cert.ReferenceIdeal.RunRead.run (F := Ideal) m' ρ')
  obtain ⟨e0, e1, e2, e3, e4, e5, e6, e7, e8, e9, e10, e11⟩ := hagree c
  rw [e0, e1, e2, e3, e4, e5, e6, e7, e8, e9, e10, e11]
  exact ref_eq_kernel m c fun o => Cert.Pre_finite_inputs.Decode.var_nonneg _ _ _ _ _ _ _ _ _ _ _ _ (hpre c) o

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.RunRead.run (F := Ideal) m ρ),
  trivial,
  algebraic⟩

end Cert.Proof

end
